-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4097x4096 : Shape := ⟨3, ![1, 4097, 4096]⟩
abbrev S4096x1024 : Shape := ⟨2, ![4096, 1024]⟩
abbrev S1024x4096 : Shape := ⟨2, ![1024, 4096]⟩
abbrev S_ : Shape := ⟨0, ![]⟩

class Facts : Prop where
  bcast_S_S1x4097x4096 : S_.BroadcastsInDim S1x4097x4096 (![] : Fin 0 → Fin S1x4097x4096.rank)
  reducesTo_S1x4097x4096_S_d0_1_2 : S1x4097x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1x4097x4096 .f32) (main_arg1 : FVec F S4096x1024 .f32) (main_arg2 : FVec F S1024x4096 .f32) : IVec S_ 1 :=
  let main_v0 : FVec F S1x4097x4096 .f32 := Host.absf main_arg0
  let main_cst : FVec F S_ .f32 := constant S_ .f32 0x7F800000#32
  let main_v1 : FVec F S1x4097x4096 .f32 := broadcastInDim S1x4097x4096 ![] bcast_S_S1x4097x4096 main_cst
  let main_v2 : IVec S1x4097x4096 1 := cmpf .olt main_v0 main_v1
  let main_c : IVec S_ 1 := constantI S_ 1 1#1
  let main_v3 : IVec S_ 1 := (fun x v => Host.reduce IntOp.andi x v reducesTo_S1x4097x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S1x4097x4096 : Shape := ⟨3, ![1, 4097, 4096]⟩
abbrev S4096x1024 : Shape := ⟨2, ![4096, 1024]⟩
abbrev S1024x4096 : Shape := ⟨2, ![1024, 4096]⟩
abbrev S1x4096x4096 : Shape := ⟨3, ![1, 4096, 4096]⟩
abbrev S4096x4096 : Shape := ⟨2, ![4096, 4096]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S1x4097x4096, .f32⟩
  | .hbm, ⟨1, _⟩ => ⟨S4096x1024, .f32⟩
  | .hbm, ⟨2, _⟩ => ⟨S1024x4096, .f32⟩
  | .hbm, ⟨3, _⟩ => ⟨S1x4096x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x512, .f32⟩
  | .local _ .vmem, ⟨8, _⟩ => ⟨S1024x512, .f32⟩
  | .local _ .vmem, ⟨9, _⟩ => ⟨S512x512, .f32⟩
  | .local _ .vmem, ⟨10, _⟩ => ⟨S512x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S512x1024, .f32⟩
  | .local _ .vmem, ⟨15, _⟩ => ⟨S512x1024, .f32⟩
  | .local _ .vmem, ⟨16, _⟩ => ⟨S1024x512, .f32⟩
  | .local _ .vmem, ⟨17, _⟩ => ⟨S1024x512, .f32⟩
  | .local _ .vmem, ⟨18, _⟩ => ⟨S512x512, .f32⟩
  | .local _ .vmem, ⟨19, _⟩ => ⟨S512x512, .f32⟩
  | _, _ => ⟨S1x4097x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S1x4097x4096_S1x4096x4096_0_1_0 : S1x4097x4096.Slices ![0, 1, 0] S1x4096x4096
  shapeCasts_S1x4096x4096_S4096x4096 : S1x4096x4096.ShapeCasts S4096x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S512x512_d0_w32 : S512x512.Iotas .tc 32 [0]
  iota_S512x512_d1_w32 : S512x512.Iotas .tc 32 [1]
  dot_S512x512_S512x1024_S512x1024_1_0_0_1_n_n_wf : DotDims.WF S512x512 S512x1024 S512x1024 [1] [0] [0] [1] [] []
  dot_S1024x512_S512x512_S1024x512_1_1_0_0_n_n_wf : DotDims.WF S1024x512 S512x512 S1024x512 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x4096.size a
  hwx1_0 : ∀ i : grid1.Coords, EltTy.bits .f32 = 32 ∨ (Rect.block (s := S1024x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x4096.size a
  hwx1_2 : ∀ i : grid1.Coords, EltTy.bits .f32 = 32 ∨ (Rect.block (s := S1024x4096) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x4096.size a
  hwx2_1 : ∀ i : grid2.Coords, EltTy.bits .f32 = 32 ∨ (Rect.block (s := S1024x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .f32 = 32 ∨ (Rect.block (s := S4096x4096) S512x512.size (cc2_transform_2 i) (hinb2_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x4097x4096 : Shape := ⟨3, ![1, 4097, 4096]⟩
abbrev S4096x1024 : Shape := ⟨2, ![4096, 1024]⟩
abbrev S1024x4096 : Shape := ⟨2, ![1024, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1x4097x4096, .f32⟩
  | .hbm, ⟨1, _⟩ => ⟨S4096x1024, .f32⟩
  | .hbm, ⟨2, _⟩ => ⟨S1024x4096, .f32⟩
  | .hbm, ⟨3, _⟩ => ⟨S1x4096x4096, .f32⟩
  | .hbm, ⟨4, _⟩ => ⟨S4096x4096, .f32⟩
  | .hbm, ⟨5, _⟩ => ⟨S4096x1024, .f32⟩
  | .hbm, ⟨6, _⟩ => ⟨S4096x4096, .f32⟩
  | .hbm, ⟨7, _⟩ => ⟨S1024x4096, .f32⟩
  | .hbm, ⟨8, _⟩ => ⟨S4096x4096, .f32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | _, _ => ⟨S1x4097x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v6 : Ref sig .tc := ⟨.hbm, 17, rfl⟩

abbrev nD : Nat := 1
abbrev τ : Topo := Topo.v7x

variable {F : FTy → Type} [FloatOps F]

class Facts₀ : Prop where
  slices_S1x4097x4096_S1x4096x4096_0_1_0 : S1x4097x4096.Slices ![0, 1, 0] S1x4096x4096
  shapeCasts_S1x4096x4096_S4096x4096 : S1x4096x4096.ShapeCasts S4096x4096
  transposes_S4096x4096_S4096x4096_1_0 : S4096x4096.Transposes [1, 0] S4096x4096
  bcast_S_S4096x4096 : S_.BroadcastsInDim S4096x4096 (![] : Fin 0 → Fin S4096x4096.rank)
  dot_S4096x4096_S4096x1024_S4096x1024_1_0_0_1_n_n_wf : DotDims.WF S4096x4096 S4096x1024 S4096x1024 [1] [0] [0] [1] [] []
  dot_S1024x4096_S4096x4096_S1024x4096_1_0_0_1_n_n_wf : DotDims.WF S1024x4096 S4096x4096 S1024x4096 [1] [0] [0] [1] [] []
  dot_S4096x1024_S1024x4096_S4096x4096_1_0_0_1_n_n_wf : DotDims.WF S4096x1024 S1024x4096 S4096x4096 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KI.R0Base.lean ====
/-
  The first matrix product, X · P, as a pipeline over an 8 × 8 grid: grid point (i, k) multiplies the 512 × 512 block
  (i, k) of X with the 512 × 1024 row block k of P and adds the product to an accumulator kept in a scratch buffer;
  the accumulator is cleared at k = 0 and copied to the result's row block i at k = 7. Here: what the three kinds of
  grid point (first, middle, last along k) are in closed form, where the result window is idle, and the names of the
  staging and scratch memrefs a point is run on. Everything is stated at a parameter `V`, the contents the
  TensorCore's buffers hold when the region is entered.
-/
import proofs.«107991_j70995809403345_1_alg».proof.Proof.Gen.KernelIdeal.Launch
import proofs.«107991_j70995809403345_1_alg».proof.Proof.Gen.KernelIdeal.Skeleton
import proofs.«107991_j70995809403345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X window's staging buffer holds block (i, k) of X at every point, for any proof data over `V` whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The P window's staging buffer holds row block k of P at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "k = 0": the accumulator is cleared. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7": the accumulator is copied to the result's block. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first point (k = 0) nothing is stored into the result window, and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same at a middle point (0 < k < 7). -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last point (k = 7) the result window is stored into. -/
theorem liveAt0_2_C : ∀ t : Fin cfg0.N, ¬cond0_0 (grid0.coords t) → cond0_1 (grid0.coords t) → cfg0.idle 2 (grid0.coords t) = false := by decide +kernel

/-! ## The memrefs a point is run on -/

/-- One staging buffer of the result window, through which its contents are stated. -/
abbrev VO0_2 : View sig .tc .vmem S512x1024 .f32 := (Memref.whole cc0_stg2_0 : Memref sig .tc .vmem S512x1024 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x1024 .f32 := Memref.whole cc0_scratch0
abbrev VS0_0 : View sig .tc .vmem S512x1024 .f32 := scM0_0.view

/-- The scoped buffers of the other two products, which this kernel never touches: each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- What the region's invariant holds before the first point: the accumulator at some contents, the other scoped
    buffers, and the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole]; try rfl

/-- The same as two entailments, which is all the body obligation uses. -/
theorem PhiA0_split (c : Dev nD) :
    (Pipeline.ΦA spec0 c : sProp 𝕄) ⊢ iprop(iprop((∃ d, owns (c : Thread nD τ) scM0_0 fullShare d) ∗ rest0 c) ∗ (∃ r, prngReg c r)) := by
  rw [PhiA0_eq]
theorem PhiA0_join (c : Dev nD) :
    (iprop(iprop((∃ d, owns (c : Thread nD τ) scM0_0 fullShare d) ∗ rest0 c) ∗ (∃ r, prngReg c r)) : sProp 𝕄) ⊢ Pipeline.ΦA spec0 c := by
  rw [PhiA0_eq]

end Cert.KernelIdeal.Frm

end
-- ==== Proof.KI.R0RunA.lean ====
/-
  A first point of the first product (k = 0): the accumulator is cleared, then the product of the point's X block and
  P block is added to it; nothing is stored into the result window. The run of the body from the staging buffers at
  given contents; what it leaves in the accumulator is found by the run as a list of stores.
-/
import proofs.«107991_j70995809403345_1_alg».proof.Proof.KI.R0Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first point, on whole staging memrefs holding the X block `x0`, the P block `x1`, the result window
    at contents `xi2` that are handed back untouched, and the accumulator at anything: it runs to the end with the
    inputs as they were and the accumulator holding the stores `LS0` the run finds. -/
noncomputable def kernelRun0_A (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i)
    (x0 : Vec F S512x512 .f32) (x1 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨[], ?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.KI.R0RunB.lean ====
/-
  A middle point of the first product (0 < k < 7): the product of the point's X block and P block is added to the
  accumulator, which holds what the point before left; nothing is stored into the result window.
-/
import proofs.«107991_j70995809403345_1_alg».proof.Proof.KI.R0RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, the accumulator entering at `xs0`: it runs to the end with the inputs and the idle
    result window as they were and the accumulator holding the stores `LS0` the run finds. -/
noncomputable def kernelRun0_B (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i)
    (x0 : Vec F S512x512 .f32) (x1 : Vec F S512x1024 .f32) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨[], ?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.KI.R0RunC.lean ====
/-
  A last point of the first product (k = 7): the product of the point's X block and P block is added to the
  accumulator, and the accumulator is then copied into the result window's staging buffer.
-/
import proofs.«107991_j70995809403345_1_alg».proof.Proof.KI.R0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last point, the accumulator entering at `xs0` and the result window at anything: it runs to the
    end with the inputs as they were, the result window holding the stores `L2` and the accumulator the stores `LS0`
    the run finds. -/
noncomputable def kernelRun0_C (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frm

end
-- ==== Proof.KI.R0Frame.lean ====
/-
  The first matrix product as proof data for its pipeline. What a grid point leaves in the accumulator and in the
  result window is read off the run of its case; `outsAt0` follows both from point to point (a first point starts the
  accumulator afresh, a later point adds to what the point before left, a last point also fills the result window);
  the region's invariant carries the accumulator at exactly that value. With this the body obligation holds at every
  point, and the invariant starts from and ends in the plain "every scoped buffer at some contents".
-/
import proofs.«107991_j70995809403345_1_alg».proof.Proof.KI.R0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the result window (it is idle there and not written back): a placeholder that nothing
    consults. -/
def out0_A_2 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i)
    (x0 : Vec F S512x512 .f32) (x1 : Vec F S512x1024 .f32) : Vec F S512x1024 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i)
    (x0 : Vec F S512x512 .f32) (x1 : Vec F S512x1024 .f32) (y : S512x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x1024.size (by sl_kernel_rfl) y

/-- What case A leaves in the accumulator: its stores read back. -/
def sout0_A_0 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i)
    (x0 : Vec F S512x512 .f32) (x1 : Vec F S512x1024 .f32) : Vec F S512x1024 .f32 :=
  VS0_0.read (Elt F) (VS0_0.writes (Elt F) VS0_0.junk (kernelRun0_A c i arg2 harg2 arg3 harg3 arg4 harg4 arg5 harg5 hc0 hc1 x0 x1).2.1)

/-- Case B stores nothing into the result window (it is idle there and not written back): a placeholder that nothing
    consults. -/
def out0_B_2 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i)
    (x0 : Vec F S512x512 .f32) (x1 : Vec F S512x1024 .f32) (xs0 : Vec F S512x1024 .f32) : Vec F S512x1024 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i)
    (x0 : Vec F S512x512 .f32) (x1 : Vec F S512x1024 .f32) (xs0 : Vec F S512x1024 .f32) (y : S512x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x1024.size (by sl_kernel_rfl) y

/-- What case B leaves in the accumulator: its stores read back. -/
def sout0_B_0 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i)
    (x0 : Vec F S512x512 .f32) (x1 : Vec F S512x1024 .f32) (xs0 : Vec F S512x1024 .f32) : Vec F S512x1024 .f32 :=
  VS0_0.read (Elt F) (VS0_0.writes (Elt F) VS0_0.junk (kernelRun0_B c i arg2 harg2 arg3 harg3 arg4 harg4 arg5 harg5 hc0 hc1 x0 x1 xs0).2.1)

/-- Case C's one store into the result window covers its whole block. -/
theorem cover0_C_2 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) (y : S512x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x1024.size (by sl_kernel_rfl) y

/-- What case C leaves in the result window's staging buffer: its stores read back. -/
def out0_C_2 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) : Vec F S512x1024 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) (y : S512x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x1024.size (by sl_kernel_rfl) y

/-- What case C leaves in the accumulator: its stores read back. -/
def sout0_C_0 (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) : Vec F S512x1024 .f32 :=
  VS0_0.read (Elt F) (VS0_0.writes (Elt F) VS0_0.junk (kernelRun0_C c i arg2 harg2 arg3 harg3 arg4 harg4 arg5 harg5 hc0 hc1 x0 x1 xs0).2.1)

/-! ## The accumulation, point by point -/

/-- What the result window's staging buffer and the accumulator hold after the body at grid position `n` (a pair:
    the window, then the accumulator): the case the closed forms select at `n`, run on the point's blocks of X and P
    and, but at a first point, on the accumulator as the position before left it. -/
def outsAt0 (c : Dev nD) : (n : ℕ) → n < cfg0.N → Vec F S512x1024 .f32 × Vec F S512x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first point. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle point: over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- Before position `n`: at the start every scoped buffer at some contents; afterwards the accumulator at what the
    position before left in it, the other scoped buffers and the generator register as they may be. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The arrays as the region finds them; after the body at point `t` the X and P windows at their blocks and the
    result window at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows hold their blocks; the closed forms say which case the point is in; the
    invariant hands over the accumulator at what the point before left (at anything, at the very first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HPhi, Ho, ⟨%d0, H0⟩, ⟨%d1, H1⟩, ⟨%d2, H2⟩⟩
        ihave HPhi' := (PhiA0_split c) $$ HPhi
        icases HPhi' with ⟨⟨HS0, Hrest⟩, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  iintro ⟨⟨HS0, Hrest⟩, Hg⟩
  iapply (PhiA0_join c)
  isplitl [HS0 Hrest]
  · isplitl [HS0]
    · iexists _; iexact HS0
    iexact Hrest
  iexact Hg

end Cert.KernelIdeal.Frm

end
-- ==== Proof.KI.R1Base.lean ====
/-
  The second matrix product, Q · Xᵀ, as a pipeline over an 8 × 8 grid: grid point (n, k) multiplies the 1024 × 512 column
  block k of Q with the transpose of the 512 × 512 block (n, k) of X and adds the product to an accumulator kept in a
  scratch buffer; the accumulator is cleared at k = 0 and copied to the result's column block n at k = 7. Here: what the three kinds of
  grid point (first, middle, last along k) are in closed form, where the result window is idle, and the names of the
  staging and scratch memrefs a point is run on. Everything is stated at a parameter `V`, the contents the
  TensorCore's buffers hold when the region is entered.
-/
import proofs.«107991_j70995809403345_1_alg».proof.Proof.Gen.KernelIdeal.Launch
import proofs.«107991_j70995809403345_1_alg».proof.Proof.Gen.KernelIdeal.Skeleton
import proofs.«107991_j70995809403345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The Q window's staging buffer holds column block k of Q at every point, for any proof data over `V` whose body
    leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The X window's staging buffer holds block (n, k) of X at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "k = 0": the accumulator is cleared. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the accumulator is copied to the result's block. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At a first point (k = 0) nothing is stored into the result window, and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same at a middle point (0 < k < 7). -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a last point (k = 7) the result window is stored into. -/
theorem liveAt1_2_C : ∀ t : Fin cfg1.N, ¬cond1_0 (grid1.coords t) → cond1_1 (grid1.coords t) → cfg1.idle 2 (grid1.coords t) = false := by decide +kernel

/-! ## The memrefs a point is run on -/

/-- One staging buffer of the result window, through which its contents are stated. -/
abbrev VO1_2 : View sig .tc .vmem S1024x512 .f32 := (Memref.whole cc1_stg2_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x512 .f32 := Memref.whole cc1_scratch0
abbrev VS1_0 : View sig .tc .vmem S1024x512 .f32 := scM1_0.view

/-- The scoped buffers of the other two products, which this kernel never touches, each at some contents: those listed
    before the accumulator, -/
abbrev restL1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))
/-- those listed after it, -/
abbrev restR1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))
/-- and all of them. -/
abbrev rest1 (c : Dev nD) : sProp 𝕄 := iprop(restL1 c ∗ restR1 c)

/-- What the region's invariant holds before the first point: every scoped buffer no window stages at some contents —
    the accumulator among them — and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ restR1 c) ∗ (∃ r, prngReg c r)) := by
  unfold Pipeline.ΦA; rw [scopedRest1_eq]; simp only [scM1_0, owns_whole]; try rfl

/-- The accumulator taken out of that list, -/
theorem PhiA1_split (c : Dev nD) :
    (Pipeline.ΦA spec1 c : sProp 𝕄) ⊢ iprop(iprop((∃ d, owns (c : Thread nD τ) scM1_0 fullShare d) ∗ rest1 c) ∗ (∃ r, prngReg c r)) := by
  rw [PhiA1_eq]
  iintro ⟨⟨A1, A2, A3, A4, A5, A6, A7, HS, HR⟩, Hg⟩
  isplitl [A1 A2 A3 A4 A5 A6 A7 HS HR]
  · isplitl [HS]; · iexact HS
    isplitl [A1 A2 A3 A4 A5 A6 A7]
    · isplitl [A1]; · iexact A1
      isplitl [A2]; · iexact A2
      isplitl [A3]; · iexact A3
      isplitl [A4]; · iexact A4
      isplitl [A5]; · iexact A5
      isplitl [A6]; · iexact A6
      iexact A7
    iexact HR
  iexact Hg
/-- and put back. -/
theorem PhiA1_join (c : Dev nD) :
    (iprop(iprop((∃ d, owns (c : Thread nD τ) scM1_0 fullShare d) ∗ rest1 c) ∗ (∃ r, prngReg c r)) : sProp 𝕄) ⊢ Pipeline.ΦA spec1 c := by
  rw [PhiA1_eq]
  iintro ⟨⟨HS, ⟨A1, A2, A3, A4, A5, A6, A7⟩, HR⟩, Hg⟩
  isplitl [A1 A2 A3 A4 A5 A6 A7 HS HR]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS]; · iexact HS
    iexact HR
  iexact Hg

end Cert.KernelIdeal.Frm

end
-- ==== Proof.KI.R2Frame.lean ====
/-
  The third matrix product with the triangle mask: grid point (i, j) multiplies the 512 × 1024 row block i of X·P
  with the 1024 × 512 column block j of Q·Xᵀ and stores the product, with every entry whose global column is not
  below its global row replaced by zero, as block (i, j) of the result. One store covers the whole block, nothing is
  carried between points. Here: what the body leaves in the result window as a function of the point and its two
  input blocks, the run of the body, the pipeline's proof data and the body obligation, at a parameter `V`.
-/
import proofs.«107991_j70995809403345_1_alg».proof.Proof.Gen.KernelIdeal.Launch
import proofs.«107991_j70995809403345_1_alg».proof.Proof.Gen.KernelIdeal.Skeleton
import proofs.«107991_j70995809403345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's window holds row block i at every point (it is fetched only when i changes, and the body
    leaves it in place). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's window holds column block j at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S512x1024 := Rect.unit (s := S512x1024) ![0, 0] S512x1024.size inb_S512x1024_S512x1024_0_0
abbrev r2_1 : Rect S1024x512 := Rect.unit (s := S1024x512) ![0, 0] S1024x512.size inb_S1024x512_S1024x512_0_0
abbrev r2_2 : Rect S512x512 := Rect.unit (s := S512x512) ![0, 0] S512x512.size inb_S512x512_S512x512_0_0

/-! ## What the body leaves in the result window -/

/-- The result window's staging buffer after the body at grid coordinates `i`, from the two input blocks: the one
    store's value, the masked product. -/
def out2_2 (i : grid2.Coords) (x0 : Vec F S512x1024 .f32) (x1 : Vec F S1024x512 .f32) : Vec F S512x512 .f32 :=
  View.canon [⟨r2_2, k2_pay1 i (View.ld x0 r2_0) (View.ld x1 r2_1)⟩]

/-- The one store covers the buffer. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's run -/

set_option maxHeartbeats 1000000 in
/-- The body on whole staging memrefs, the inputs' at contents `x0`, `x1` and the result's at anything, runs to the
    end with the inputs as they were and the result's buffer at `out2_2` of them. -/
theorem sound_kernel2 (c : Dev nD) (E : Set ℕ) (i : grid2.Coords) (arg2 : Memref sig .tc .vmem S512x1024 .f32) (harg2 : arg2.IsWhole) (arg3 : Memref sig .tc .vmem S1024x512 .f32) (harg3 : arg3.IsWhole) (arg4 : Memref sig .tc .vmem S512x512 .f32) (harg4 : arg4.IsWhole)
    (x0 : Vec F S512x1024 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 i x0 x1)) -∗ K ⟨⟩))
      ⊢ wp frame (wpE (defs₀ (F := F)) Variants.none c none) E (cc2__mm3_kernel i arg2 harg2 arg3 harg3 arg4 harg4) K := by
  simp only [cc2__mm3_kernel_eq_skeleton]; unfold cc2__mm3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input window at its block and the result
    window at `out2_2` of the point and its blocks; the invariant the plain one; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input windows hold their blocks, so the run applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Run.lean ====
/-
  @main from the launch to the return: the slice and reshape that make X, then the three products, each a kernel
  region. The contents of the TensorCore's unscoped buffers are followed from boundary to boundary — `W1` after the
  host operations, `W2`, `W3`, `W4` after the products, each product changing only its result array —, every region
  is a segment entered and left at those contents, and the whole run ends with every unscoped buffer at `W4`. The
  three arguments are never written, so `W4` at an argument is the launch memory.
-/
import proofs.«107991_j70995809403345_1_alg».proof.Proof.KI.R0Frame
import proofs.«107991_j70995809403345_1_alg».proof.Proof.KI.R1Frame
import proofs.«107991_j70995809403345_1_alg».proof.Proof.KI.R2Frame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the slice and the reshape: X stands in `main_v1`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At product 1's exit: its windows' arrays at what the pipeline leaves (an input as entered, the result with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At product 2's exit: its windows' arrays at what the pipeline leaves (an input as entered, the result with its
    write-backs folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At product 3's exit: its windows' arrays at what the pipeline leaves (an input as entered, the result with its
    write-backs folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- P is the first product's right factor: an input window's array ends as entered. -/
theorem W2_main_arg1 (c : Dev nD) : W2 m ρ c (Proc.devRef .tc main_arg1) = m ((c : Thread nD τ).loc main_arg1) :=
  (W2_arr m ρ c 1).trans (((dat0 (V1 m ρ) c).arrAt_in 1 rfl _).trans ((A_eq0 (V1 m ρ) c 1).trans (W1_main_arg1 m ρ c)))

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = m ((c : Thread nD τ).loc main_arg1) := W2_main_arg1 m ρ c

theorem W2_main_arg2 (c : Dev nD) : W2 m ρ c (Proc.devRef .tc main_arg2) = m ((c : Thread nD τ).loc main_arg2) :=
  (W2_of_ne m ρ c main_arg2 (by decide)).trans (W1_main_arg2 m ρ c)

/-- Q is the second product's left factor. -/
theorem W3_main_arg2 (c : Dev nD) : W3 m ρ c (Proc.devRef .tc main_arg2) = m ((c : Thread nD τ).loc main_arg2) :=
  (W3_arr m ρ c 0).trans (((dat1 (V2 m ρ) c).arrAt_in 0 rfl _).trans ((A_eq1 (V2 m ρ) c 0).trans (W2_main_arg2 m ρ c)))

theorem W4_main_arg2 (c : Dev nD) : W4 m ρ c (Proc.devRef .tc main_arg2) = m ((c : Thread nD τ).loc main_arg2) :=
  (W4_of_ne m ρ c main_arg2 (by decide)).trans (W3_main_arg2 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The slice and the reshape allocate nothing. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues. -/
abbrev Tₙ (c : Dev nD) : sProp 𝕄 := iprop(StableHlo.held (c : Thread nD τ) (Pipeline.ucRefs τ sig) (W4 m ρ c) ∗ ∃ r, prngReg c r)

/-! ## The products as segments -/

set_option backward.isDefEq.respectTransparency.types false in
/-- Product 1 as a segment of @main: entered with every unscoped buffer at `W1`, left with them at the next
    boundary's contents. Its windows' arrays are split out of the unscoped buffers at entry and put back, at what the
    write-backs leave, at exit; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 2 as a segment of @main: entered with every unscoped buffer at `W2`, left with them at the next
    boundary's contents. Its windows' arrays are split out of the unscoped buffers at entry and put back, at what the
    write-backs leave, at exit; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 3 as a segment of @main: entered with every unscoped buffer at `W3`, left with them at the next
    boundary's contents. Its windows' arrays are split out of the unscoped buffers at entry and put back, at what the
    write-backs leave, at exit; the generator register goes into the region's invariant and comes back; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, nothing faulting, and the
    final memory holds every unscoped buffer of every core at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Frm

end
-- ==== Proof.Spec.lean ====
/-
  What the program computes, as functions of whole arrays over the extended reals.

  `features` is one batch of 4097 rows of 4096 numbers; X is its rows 1 … 4096. With P of 4096 × 1024 and Q of
  1024 × 4096 the result is the strictly lower triangle of (X · P) · (Q · Xᵀ): entry (i, j) is
  Σ_l (Σ_k X[i,k] · P[k,l]) · (Σ_k Q[l,k] · X[j,k]) when j < i, and 0 otherwise. Each of the three products is
  stated as one plain sum over its whole contracted axis; how a program cuts that sum into tiles is not said here.
-/
import Idealize.ShloMosaic.PureOps.Ideal
import Idealize.ShloMosaic.Lib.ValueIdx

noncomputable section

open scoped BigOperators

namespace Cert.Spec

open Idealize.ShloMosaic Idealize.ShloMosaic.ValueIdx

/-- The shapes of the three inputs and of the square matrices. -/
abbrev SF : Shape := ⟨3, ![1, 4097, 4096]⟩
abbrev SX : Shape := ⟨2, ![4096, 4096]⟩
abbrev SP : Shape := ⟨2, ![4096, 1024]⟩
abbrev SQ : Shape := ⟨2, ![1024, 4096]⟩

/-- X: rows 1 … 4096 of the one batch of `features`. -/
def X (feat : FVec Ideal SF .f32) : FVec Ideal SX .f32 :=
  fun i => feat (ix3 (0 : Fin 1) (⟨(i 0).val + 1, Nat.succ_lt_succ (idx2_lt0 i)⟩ : Fin 4097) (i 1))

/-- X · P: entry (a, l) is Σ_k X[a,k] · P[k,l]. -/
def XP (x : FVec Ideal SX .f32) (p : FVec Ideal SP .f32) : FVec Ideal SP .f32 :=
  fun i => ∑ k : Fin 4096, x (ix2 (i 0) k) * p (ix2 k (i 1))

/-- Q · Xᵀ: entry (l, b) is Σ_k Q[l,k] · X[b,k]. -/
def QXT (q : FVec Ideal SQ .f32) (x : FVec Ideal SX .f32) : FVec Ideal SQ .f32 :=
  fun i => ∑ k : Fin 4096, q (ix2 (i 0) k) * x (ix2 (i 1) k)

/-- The score matrix A · B of a 4096 × 1024 and a 1024 × 4096 matrix: entry (a, b) is Σ_l A[a,l] · B[l,b]. -/
def S (a : FVec Ideal SP .f32) (b : FVec Ideal SQ .f32) : FVec Ideal SX .f32 :=
  fun i => ∑ l : Fin 1024, a (ix2 (i 0) l) * b (ix2 l (i 1))

/-- The strictly lower triangle: entries on and above the diagonal are 0. -/
def tril (s : FVec Ideal SX .f32) : FVec Ideal SX .f32 :=
  fun i => if (i 1).val < (i 0).val then s i else 0

/-- The whole result as a function of the three inputs. -/
def out (feat : FVec Ideal SF .f32) (p : FVec Ideal SP .f32) (q : FVec Ideal SQ .f32) : FVec Ideal SX .f32 :=
  tril (S (XP (X feat) p) (QXT q (X feat)))

end Cert.Spec

end
-- ==== Proof.KI.HostValue.lean ====
/-
  The host stretch before the three products: the slice of rows 1 … 4096 of the one batch of `features`, then the
  reshape that drops the batch axis. What it leaves in its result array is X of the specification.
-/
import proofs.«107991_j70995809403345_1_alg».proof.Proof.Gen.KernelIdeal.Launch
import proofs.«107991_j70995809403345_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.ShloMosaic.ValueIdx

namespace HostV

/-- The slice then the reshape, read at (a, b): the argument at batch 0, row a + 1, column b. -/
theorem slice_reshape_apply {α : Type} (x : S1x4097x4096.Idx → α) (i : S4096x4096.Idx) :
    shapeCast S4096x4096 (extractStridedSlice S1x4096x4096 ![0, 1, 0] x slices_S1x4097x4096_S1x4096x4096_0_1_0) shapeCasts_S1x4096x4096_S4096x4096 i
      = x (ix3 (0 : Fin 1) (⟨(i 0).val + 1, Nat.succ_lt_succ (idx2_lt0 i)⟩ : Fin 4097) (i 1)) := by
  have h0 : (i 0).val < 4096 := idx2_lt0 i
  have h1 : (i 1).val < 4096 := idx2_lt1 i
  refine (shapeCast_apply _ shapeCasts_S1x4096x4096_S4096x4096 i (ix3 (0 : Fin 1) (i 0) (i 1)) ?_).trans ?_
  · rewrite [Shape.rowMajor_val_three, Shape.rowMajor_val_two]
    show (0 * 4096 + (i 0).val) * 4096 + (i 1).val = (i 0).val * 4096 + (i 1).val
    omega
  · exact extractStridedSlice_apply ![0, 1, 0] x slices_S1x4097x4096_S1x4096x4096_0_1_0 (ix3 (0 : Fin 1) (i 0) (i 1)) _ (fun a => match a with
      | ⟨0, _⟩ => by show 0 = 0 + 0; omega
      | ⟨1, _⟩ => by show (i 0).val + 1 = 1 + (i 0).val; omega
      | ⟨2, _⟩ => by show (i 1).val = 0 + (i 1).val; omega)

end HostV

/-- After the host stretch the reshape's result array holds X of the first argument. -/
theorem host_v1 (m : (ℓ : Loc nD τ sig) → Buf (Elt Ideal) ℓ) (c : Dev nD) :
    StableHlo.after (hostOps0 (F := Ideal)) (fun b => m (c, b)) (Proc.devRef .tc main_v1) = Cert.Spec.X (m ((c : Thread nD τ).loc main_arg0)) := by
  have e : StableHlo.after (hostOps0 (F := Ideal)) (fun b => m (c, b)) (Proc.devRef .tc main_v1)
      = shapeCast S4096x4096 (extractStridedSlice S1x4096x4096 ![0, 1, 0] (m ((c : Thread nD τ).loc main_arg0) : S1x4097x4096.Idx → Elt Ideal .f32) slices_S1x4097x4096_S1x4096x4096_0_1_0) shapeCasts_S1x4096x4096_S4096x4096 := by
    after_results; rfl
  refine e.trans ?_
  funext i
  exact HostV.slice_reshape_apply _ i

end Cert.KernelIdeal.Frm

end
-- ==== Proof.LibSums.lean ====
/-
  Finite sums over a flat index read through quotient and remainder.

  A position q below a·b is the pair (q / b, q % b). A sum over the flat positions that meet a condition on the pair is
  the double sum over the pairs that meet it; a sum over all flat positions is the sum over tiles of the sum inside a tile.
  Stated for any commutative additive monoid and any extents.
-/
import Idealize.ShloMosaic.Lib.ValueIdx

noncomputable section

open scoped BigOperators

namespace Cert.LibSums

/-- The quotient of a flat position by the inner extent, as the outer coordinate. -/
def hi {N a b : Nat} (hN : N = a * b) (q : Fin N) : Fin a :=
  ⟨q.val / b, by have := q.isLt; subst hN; exact Nat.div_lt_of_lt_mul (by have h := Nat.mul_comm a b; omega)⟩

/-- The remainder of a flat position by the inner extent, as the inner coordinate. -/
def lo {N : Nat} (b : Nat) (hb : 0 < b) (q : Fin N) : Fin b := ⟨q.val % b, Nat.mod_lt _ hb⟩

/-- The flat position of a pair. -/
def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

/-- The pair of a flat position as an equivalence between the flat positions below `a·b` and the pairs; its inverse is
`flat`. The round trips are `q / b · b + q % b = q`, `(k·b + p) / b = k` and `(k·b + p) % b = p` for `p < b`. -/
def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

/-- A sum over the flat positions whose pair meets `P` is the double sum over the pairs that meet `P`. -/
theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

/-- A sum over all flat positions is the sum over tiles of the sum inside each tile. -/
theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.LibPartial.lean ====
/-
  The sum of the first m of n terms of a commutative additive monoid, written as a sum over all n positions that keeps
  a term only where its position is below m: it is zero for m = 0, it gains the term at position m on passing from m to
  m + 1, and it is the whole sum for m = n. This is the running value of an accumulation that adds one term per step.
-/
import Idealize.ShloMosaic.Lib.ValueIdx

noncomputable section

open scoped BigOperators

namespace Cert.LibPartial

/-- The sum of the terms of f at the positions below m. -/
def upto {M : Type} [AddCommMonoid M] {n : Nat} (f : Fin n → M) (m : Nat) : M :=
  ∑ k : Fin n, if k.val < m then f k else 0

/-- Below position 0 there is nothing to add. -/
theorem upto_zero {M : Type} [AddCommMonoid M] {n : Nat} (f : Fin n → M) : upto f 0 = 0 :=
  Finset.sum_eq_zero fun k _ => if_neg (Nat.not_lt_zero _)

/-- Below position n lies every term. -/
theorem upto_full {M : Type} [AddCommMonoid M] {n : Nat} (f : Fin n → M) : upto f n = ∑ k : Fin n, f k :=
  Finset.sum_congr rfl fun k _ => if_pos k.isLt

/-- One step: the positions below m + 1 are those below m and the position m itself. -/
theorem upto_succ {M : Type} [AddCommMonoid M] {n : Nat} (f : Fin n → M) (m : Nat) (h : m < n) :
    upto f (m + 1) = upto f m + f ⟨m, h⟩ := by
  have e : f ⟨m, h⟩ = ∑ k : Fin n, if k = ⟨m, h⟩ then f k else 0 := by
    rw [Finset.sum_ite_eq' Finset.univ (⟨m, h⟩ : Fin n) f, if_pos (Finset.mem_univ _)]
  unfold upto
  rw [e, ← Finset.sum_add_distrib]
  refine Finset.sum_congr rfl fun k _ => ?_
  by_cases hk : k.val < m
  · have hne : k ≠ ⟨m, h⟩ := fun e' => by rw [e'] at hk; exact lt_irrefl _ hk
    rw [if_pos (Nat.lt_succ_of_lt hk), if_pos hk, if_neg hne, add_zero]
  · by_cases hk2 : k = ⟨m, h⟩
    · subst hk2
      rw [if_pos (Nat.lt_succ_self m), if_neg (lt_irrefl m), if_pos rfl, zero_add]
    · have hnl : ¬k.val < m + 1 := fun h' => hk2 (Fin.ext (by show k.val = m; omega))
      rw [if_neg hnl, if_neg hk, if_neg hk2, add_zero]

end Cert.LibPartial

end
-- ==== Proof.KI.R0Value.lean ====
/-
  The value of the first matrix product over the extended reals: the result array ends holding X · P.

  Grid point t = 8·i + k multiplies block (i, k) of X with row block k of P and adds the product to an accumulator
  that a first point (k = 0) has cleared; a last point (k = 7) copies the accumulator into row block i of the result.
  What each point's stores read back to is the point's update of the accumulator; at an entry that update adds one
  tile, the 512 contraction positions 512·k … 512·k + 511, of a row of X against a column of P. By induction on the
  point the accumulator after point 8·i + k holds the tiles 0 … k, so a last point writes back whole rows of X · P
  (the eight tiles are the plain sum over the 4096 positions), and the row blocks written back cover the array.
  Only the commutative-monoid laws of + on the extended reals are used.
-/
import proofs.«107991_j70995809403345_1_alg».proof.Proof.KI.R0Frame
import proofs.«107991_j70995809403345_1_alg».proof.Proof.Spec
import proofs.«107991_j70995809403345_1_alg».proof.Proof.LibSums
import proofs.«107991_j70995809403345_1_alg».proof.Proof.LibPartial
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## What each case's stores read back to -/

theorem hz0 : (![0, 0] : Fin 2 → Nat) = fun _ => 0 := funext fun a => by fin_cases a <;> rfl

/-- A first point clears the accumulator and then adds the product of its blocks to the cleared accumulator. -/
theorem sout0_A_0_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i)
    (x0 : Vec F S512x512 .f32) (x1 : Vec F S512x1024 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1024) hz0, View.readCov_unit_zero (S := S512x1024) _ hz0]
  simp only [View.readAt_eq_ld, harg2.read_unread, harg3.read_unread, View.ld_unit_zero (S := S512x512) hz0, View.ld_unit_zero (S := S512x1024) hz0]

/-- A middle point adds the product of its blocks to the accumulator as the point before left it. -/
theorem sout0_B_0_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i)
    (x0 : Vec F S512x512 .f32) (x1 : Vec F S512x1024 .f32) (xs0 : Vec F S512x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz0]
  simp only [View.readAt_eq_ld, harg2.read_unread, harg3.read_unread, harg5.read_unread, View.ld_unit_zero (S := S512x512) hz0, View.ld_unit_zero (S := S512x1024) hz0]

/-- A last point does the same to the accumulator, -/
theorem sout0_C_0_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S512x512) hz0, View.ld_unit_zero (S := S512x1024) hz0]

/-- and copies the accumulator, read back after that store, into the result window. -/
theorem out0_C_2_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i)
    (x0 : Vec F S512x512 .f32) (x1 : Vec F S512x1024 .f32) (xs0 : Vec F S512x1024 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S512x512) hz0, View.ld_unit_zero (S := S512x1024) hz0, View.readCov_unit_zero (S := S512x1024) _ hz0]

/-! ## The payloads at an entry, over the extended reals -/

/-- The cleared accumulator is zero everywhere. -/
theorem k0_pay1_apply (r : Fin 512) (l : Fin 1024) : (k0_pay1 (F := Ideal)) (ix2 r l) = 0 := by
  unfold k0_pay1
  rw [shapeCast_self]
  exact Ideal.ofBits_zero_f32

theorem lhs0_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs0_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem rhs0_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem rhs0_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The block product into the zero accumulator, at an entry: the row of the left block against the column of the
    right block. -/
theorem mm0_apply (a : FVec Ideal S512x512 .bf16) (b : FVec Ideal S512x1024 .bf16) (r : Fin 512) (l : Fin 1024) :
    matmul (F := Ideal) dot_S512x512_S512x1024_S512x1024_1_0_0_1_n_n none a b (constant (F := Ideal) S512x1024 .f32 0x00000000#32) (ix2 r l)
      = ∑ kk : Fin 512, a (ix2 r kk) * b (ix2 kk l) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r l) ((contrEquiv1 dot_S512x512_S512x1024_S512x1024_1_0_0_1_n_n 512 rfl rfl).symm k) = ix2 r k := funext fun a => Fin.ext (by
    match a with
    | ⟨0, _⟩ => exact lhs0_0 _ _
    | ⟨1, _⟩ => exact (lhs0_1 _ _).trans hk)
  have er : dot_S512x512_S512x1024_S512x1024_1_0_0_1_n_n.rhsIdx (ix2 r l) ((contrEquiv1 dot_S512x512_S512x1024_S512x1024_1_0_0_1_n_n 512 rfl rfl).symm k) = ix2 k l := funext fun a => Fin.ext (by
    match a with
    | ⟨0, _⟩ => exact (rhs0_0 _ _).trans hk
    | ⟨1, _⟩ => exact rhs0_1 _ _)
  rw [el, er]

/-- A point's update at an entry: the accumulator there plus the row of the X block against the column of the P block
    (the narrowing casts and the casts to the same shape are the identity on extended reals). -/
theorem k0_pay2_apply (x0 : Vec Ideal S512x512 .f32) (x1 : Vec Ideal S512x1024 .f32) (acc : Vec Ideal S512x1024 .f32)
    (r : Fin 512) (l : Fin 1024) :
    k0_pay2 (F := Ideal) x0 x1 acc (ix2 r l) = acc (ix2 r l) + ∑ kk : Fin 512, x0 (ix2 r kk) * x1 (ix2 kk l) := by
  unfold k0_pay2
  rw [shapeCast_self, shapeCast_self]
  refine (addf_apply _ _ _).trans ?_
  refine congrArg (acc (ix2 r l) + ·) ?_
  exact mm0_apply _ _ r l

/-! ## The arrays, their blocks, and the running sum -/

variable (V : (c : Dev nD) → (b : Ref sig .tc) → Buf (Elt Ideal) ((c : Thread nD τ).loc b))

/-- X and P as the region finds them, and the blocks of them a grid point is run on. -/
abbrev xarr0 (c : Dev nD) : FVec Ideal Cert.Spec.SX .f32 := V c main_v1
abbrev parr0 (c : Dev nD) : FVec Ideal Cert.Spec.SP .f32 := V c main_arg1
abbrev xblk0 (c : Dev nD) (t : Fin cfg0.N) : Vec Ideal S512x512 .f32 := iblk0 V c 0 t
abbrev pblk0 (c : Dev nD) (t : Fin cfg0.N) : Vec Ideal S512x1024 .f32 := iblk0 V c 1 t

/-- Point t = 8·i + k reads block (i, k) of X and row block k of P, and its result block is row block i. -/
theorem idx0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (r, kk) of the X block at point 8·i + k is X[512·i + r, 512·k + kk]. -/
theorem xblk0_apply (c : Dev nD) (t : Fin cfg0.N) (j : S512x512.Idx) (i : Cert.Spec.SX.Idx)
    (h0 : (i 0).val = t.val / 8 * 512 + (j 0).val) (h1 : (i 1).val = t.val % 8 * 512 + (j 1).val) :
    xblk0 V c t j = xarr0 V c i := by
  obtain ⟨e0, e1, -⟩ := idx0 t
  show iblk0 V c 0 t j = _
  unfold iblk0
  rw [View.read_apply]
  show V c main_v1 _ = V c main_v1 _
  congr 1
  funext a
  apply Fin.ext
  match a with
  | ⟨0, _⟩ => show win0_0.index t 0 * 512 + 1 * (j 0).val = (i 0).val; rw [e0, h0]; omega
  | ⟨1, _⟩ => show win0_0.index t 1 * 512 + 1 * (j 1).val = (i 1).val; rw [e1, h1]; omega

/-- Entry (kk, l) of the P block at point 8·i + k is P[512·k + kk, l]. -/
theorem pblk0_apply (c : Dev nD) (t : Fin cfg0.N) (j : S512x1024.Idx) (i : Cert.Spec.SP.Idx)
    (h0 : (i 0).val = t.val % 8 * 512 + (j 0).val) (h1 : (i 1).val = (j 1).val) :
    pblk0 V c t j = parr0 V c i := by
  obtain ⟨-, -, e0, e1, -⟩ := idx0 t
  show iblk0 V c 1 t j = _
  unfold iblk0
  rw [View.read_apply]
  show V c main_arg1 _ = V c main_arg1 _
  congr 1
  funext a
  apply Fin.ext
  match a with
  | ⟨0, _⟩ => show win0_1.index t 0 * 512 + 1 * (j 0).val = (i 0).val; rw [e0, h0]; omega
  | ⟨1, _⟩ => show win0_1.index t 1 * 1024 + 1 * (j 1).val = (i 1).val; rw [e1, h1]; omega

/-- Position kk of tile k among eight tiles of 512 contraction positions. -/
abbrev pos8 (k : Fin 8) (kk : Fin 512) : Fin 4096 := Cert.LibSums.flat (N := 4096) (a := 8) (b := 512) rfl k kk

/-- The part of the contraction that lies in tile k: row a of X against column l of P. -/
def tile0 (x : FVec Ideal Cert.Spec.SX .f32) (p : FVec Ideal Cert.Spec.SP .f32) (a : Fin 4096) (l : Fin 1024) (k : Fin 8) : EReal :=
  ∑ kk : Fin 512, x (ix2 a (pos8 k kk)) * p (ix2 (pos8 k kk) l)

/-- The product of a point's blocks at an entry is one tile of the contraction. -/
theorem blockprod0 (c : Dev nD) (t : Fin cfg0.N) (r : Fin 512) (l : Fin 1024) (a : Fin 4096)
    (ha : a.val = t.val / 8 * 512 + r.val) (k : Fin 8) (hk : k.val = t.val % 8) :
    ∑ kk : Fin 512, xblk0 V c t (ix2 r kk) * pblk0 V c t (ix2 kk l) = tile0 (xarr0 V c) (parr0 V c) a l k := by
  unfold tile0
  refine Finset.sum_congr rfl fun kk _ => ?_
  rw [xblk0_apply V c t (ix2 r kk) (ix2 a (pos8 k kk)) ha (by show k.val * 512 + kk.val = _; rw [hk]),
    pblk0_apply V c t (ix2 kk l) (ix2 (pos8 k kk) l) (by show k.val * 512 + kk.val = _; rw [hk]) rfl]

/-! ## The accumulator after every point -/

/-- After point t = 8·i + k the accumulator holds, at (r, l), the tiles 0 … k of row 512·i + r of X against column l
    of P: a first point starts from zero, a later one adds its tile to what the point before left. -/
theorem acc0_eq (c : Dev nD) (n : ℕ) : ∀ (hn : n < cfg0.N) (r : Fin 512) (l : Fin 1024) (a : Fin 4096),
    a.val = n / 8 * 512 + r.val →
    (outsAt0 V c n hn).2 (ix2 r l) = Cert.LibPartial.upto (tile0 (xarr0 V c) (parr0 V c) a l) (n % 8 + 1) := by
  induction n with
  | zero =>
    intro hn r l a ha
    rw [outsAt0_A V c ⟨0, hn⟩ (Nat.zero_mod 8) (by show ¬(0 % 8 = 7); decide)]
    dsimp only
    rw [sout0_A_0_eq]
    refine (k0_pay2_apply (xblk0 V c ⟨0, hn⟩) (pblk0 V c ⟨0, hn⟩) (k0_pay1 (F := Ideal)) r l).trans ?_
    rw [k0_pay1_apply, zero_add, blockprod0 V c ⟨0, hn⟩ r l a ha ⟨0, by decide⟩ rfl]
    show _ = Cert.LibPartial.upto _ (0 + 1)
    rw [Cert.LibPartial.upto_succ _ 0 (by decide), Cert.LibPartial.upto_zero, zero_add]
  | succ n ih =>
    intro hn r l a ha
    have hN : n + 1 < 64 := lt_of_lt_of_eq hn (show cfg0.N = 64 from N_0)
    by_cases h0 : (n + 1) % 8 = 0
    · have h1 : ¬(n + 1) % 8 = 7 := by omega
      rw [outsAt0_A V c ⟨n + 1, hn⟩ h0 h1]
      dsimp only
      rw [sout0_A_0_eq]
      refine (k0_pay2_apply (xblk0 V c ⟨n + 1, hn⟩) (pblk0 V c ⟨n + 1, hn⟩) (k0_pay1 (F := Ideal)) r l).trans ?_
      rw [k0_pay1_apply, zero_add, blockprod0 V c ⟨n + 1, hn⟩ r l a ha ⟨0, by decide⟩ h0.symm, h0]
      show _ = Cert.LibPartial.upto _ (0 + 1)
      rw [Cert.LibPartial.upto_succ _ 0 (by decide), Cert.LibPartial.upto_zero, zero_add]
    · have hprev : (outsAt0 V c n (Nat.lt_of_succ_lt hn)).2 (ix2 r l) = Cert.LibPartial.upto (tile0 (xarr0 V c) (parr0 V c) a l) ((n + 1) % 8) := by
        rw [ih (Nat.lt_of_succ_lt hn) r l a (by rw [ha]; omega)]
        congr 1
        omega
      have hk : (n + 1) % 8 < 8 := Nat.mod_lt _ (by decide)
      have hstep : k0_pay2 (xblk0 V c ⟨n + 1, hn⟩) (pblk0 V c ⟨n + 1, hn⟩) (outsAt0 V c n (Nat.lt_of_succ_lt hn)).2 (ix2 r l)
          = Cert.LibPartial.upto (tile0 (xarr0 V c) (parr0 V c) a l) ((n + 1) % 8 + 1) := by
        refine (k0_pay2_apply _ _ _ r l).trans ?_
        rw [hprev, blockprod0 V c ⟨n + 1, hn⟩ r l a ha ⟨(n + 1) % 8, hk⟩ rfl, Cert.LibPartial.upto_succ _ _ hk]
      by_cases h1 : (n + 1) % 8 = 7
      · rw [outsAt0_C V c ⟨n + 1, hn⟩ h0 h1]
        dsimp only
        rw [sout0_C_0_eq]
        exact hstep
      · rw [outsAt0_B V c ⟨n + 1, hn⟩ h0 h1]
        dsimp only
        rw [sout0_B_0_eq]
        exact hstep

/-- At a last point the result window is left holding what the accumulator holds. -/
theorem out0_eq_acc (c : Dev nD) (t : Fin cfg0.N) (h1 : t.val % 8 = 7) :
    (outsAt0 V c t.val t.isLt).1 = (outsAt0 V c t.val t.isLt).2 := by
  have h0 : ¬t.val % 8 = 0 := by omega
  rw [outsAt0_C V c t h0 h1]
  dsimp only
  rw [out0_C_2_eq, sout0_C_0_eq]

/-- So a last point leaves in the result window, at (r, l), the whole contraction of row 512·i + r of X against
    column l of P: the eight tiles are the plain sum over the 4096 positions. -/
theorem out0_at (c : Dev nD) (t : Fin cfg0.N) (h1 : t.val % 8 = 7) (j : S512x1024.Idx) (i : Cert.Spec.SP.Idx)
    (h0 : (i 0).val = t.val / 8 * 512 + (j 0).val) (hl : (i 1).val = (j 1).val) :
    (outsAt0 V c t.val t.isLt).1 j = Cert.Spec.XP (xarr0 V c) (parr0 V c) i := by
  obtain ⟨r, l, rfl⟩ : ∃ (r : Fin 512) (l : Fin 1024), j = ix2 r l := ⟨j 0, j 1, eq_ix2 j⟩
  obtain ⟨a, l', rfl⟩ : ∃ (a : Fin 4096) (l' : Fin 1024), i = ix2 a l' := ⟨i 0, i 1, eq_ix2 i⟩
  obtain rfl : l = l' := (Fin.ext hl).symm
  rw [out0_eq_acc V c t h1, acc0_eq V c t.val t.isLt r l a h0, h1]
  show Cert.LibPartial.upto _ 8 = _
  rw [Cert.LibPartial.upto_full]
  unfold Cert.Spec.XP
  exact (Cert.LibSums.sum_tiles (N := 4096) (a := 8) (b := 512) rfl
    (fun q : Fin 4096 => xarr0 V c (ix2 a q) * parr0 V c (ix2 q l))).symm

/-! ## From the blocks to the array -/

/-- What a last point writes back is its row block of X · P. -/
theorem flushed0_2 (c : Dev nD) (t : Fin cfg0.N) (hf : (cfg0.win 2).flush t = true) :
    (dat0 V c).flushed 2 t = ((cfg0.win 2).blk t).view.read (Elt Ideal) (Cert.Spec.XP (xarr0 V c) (parr0 V c)) := by
  have h7 : t.val % 8 = 7 := (flush0_2 t).mp hf
  obtain ⟨-, -, -, -, e0, e1⟩ := idx0 t
  show (cfg0.win 2).cut (grid0.coords t) ((dat0 V c).after 2 t) = _
  rw [after0_2]
  funext j
  rw [View.read_apply]
  refine out0_at V c t h7 j _ ?_ ?_
  · show win0_2.index t 0 * 512 + 1 * (j 0).val = _; rw [e0]; omega
  · show win0_2.index t 1 * 1024 + 1 * (j 1).val = _; rw [e1]; omega

/-- Row a of the result lies in the block the point 8·(a / 512) + 7 writes back, so the result array ends holding
    X · P. -/
theorem arrAt0_2 (c : Dev nD) :
    (dat0 (F := Ideal) V c).arrAt 2 cfg0.N = Cert.Spec.XP (V c main_v1) (V c main_arg1) :=
  (dat0 V c).arrAt_eq_of_cover 2 (Cert.Spec.XP (xarr0 V c) (parr0 V c)) (flushed0_2 V c) fun i => by
    have hi0 : (i 0 : Nat) < 4096 := (i 0).isLt
    have hi1 : (i 1 : Nat) < 1024 := (i 1).isLt
    have hN : cfg0.N = 64 := N_0
    have ht : 8 * ((i 0 : Nat) / 512) + 7 < cfg0.N := by rw [hN]; omega
    refine ⟨⟨8 * ((i 0 : Nat) / 512) + 7, ht⟩, (flush0_2 _).mpr (by show (8 * ((i 0 : Nat) / 512) + 7) % 8 = 7; omega), ?_⟩
    obtain ⟨-, -, -, -, e0, e1⟩ := idx0 ⟨8 * ((i 0 : Nat) / 512) + 7, ht⟩
    show i ∈ ((View.whole main_v2).slice (win0_2.rect ⟨8 * ((i 0 : Nat) / 512) + 7, ht⟩)).set
    rw [View.set_slice_whole, Rect.mem_set_unit]
    intro a
    match a with
    | ⟨0, _⟩ =>
      show win0_2.index ⟨8 * ((i 0 : Nat) / 512) + 7, ht⟩ 0 * 512 ≤ (i 0 : Nat) ∧ (i 0 : Nat) < win0_2.index ⟨8 * ((i 0 : Nat) / 512) + 7, ht⟩ 0 * 512 + 512
      rw [e0]; show (8 * ((i 0 : Nat) / 512) + 7) / 8 * 512 ≤ (i 0 : Nat) ∧ (i 0 : Nat) < (8 * ((i 0 : Nat) / 512) + 7) / 8 * 512 + 512; omega
    | ⟨1, _⟩ =>
      show win0_2.index ⟨8 * ((i 0 : Nat) / 512) + 7, ht⟩ 1 * 1024 ≤ (i 1 : Nat) ∧ (i 1 : Nat) < win0_2.index ⟨8 * ((i 0 : Nat) / 512) + 7, ht⟩ 1 * 1024 + 1024
      rw [e1]; omega

end Cert.KernelIdeal.Frm

end
-- ==== Proof.KI.R1Value.lean ====
/-
  The value of the second matrix product over the extended reals: the result array ends holding Q · Xᵀ.

  Grid point t = 8 n + k holds column block k of Q (1024 × 512) and block (n, k) of X (512 × 512). It adds to an
  accumulator, which a first point (k = 0) has cleared, the product of the Q block with the transposed X block: at entry
  (a, s) that is the 512 contraction positions 512 k … 512 k + 511 of row a of Q against row 512 n + s of X. A last
  point (k = 7) copies the accumulator into column block n of the result. By induction on the point the accumulator
  after point 8 n + k holds the tiles 0 … k; the eight tiles are the plain sum over the 4096 positions, so a last point
  writes back whole columns of Q · Xᵀ, and the column blocks written back cover the array. Only the laws of a
  commutative monoid for + on the extended reals are used.
-/
import proofs.«107991_j70995809403345_1_alg».proof.Proof.KI.R1Frame
import proofs.«107991_j70995809403345_1_alg».proof.Proof.Spec
import proofs.«107991_j70995809403345_1_alg».proof.Proof.LibSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace R1V

variable {F : FTy → Type} [FloatOps F]

local notation "𝕄" => MT nD τ sig Unit (Elt F) ℕ (UR sig nD τ) ℕ

/-! ## What each case's stores read back to -/

theorem hz : (![0, 0] : Fin 2 → Nat) = fun _ => 0 := funext fun a => by fin_cases a <;> rfl

/-- A first point clears the accumulator and then adds the product of its blocks to the cleared accumulator. -/
theorem sout_A_eq (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x512 .f32) (x1 : Vec F S512x512 .f32) :
    sout1_A_0 c i arg2 harg2 arg3 harg3 arg4 harg4 arg5 harg5 hc0 hc1 x0 x1 = k1_pay2 x0 x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x512) hz, View.ld_unit_zero (S := S512x512) hz]

/-- A middle point adds the product of its blocks to the accumulator as the point before left it. -/
theorem sout_B_eq (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x512 .f32) (x1 : Vec F S512x512 .f32) (xs0 : Vec F S1024x512 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz]
  simp only [View.readAt_eq_ld, harg2.read_unread, harg3.read_unread, harg5.read_unread, View.ld_unit_zero (S := S1024x512) hz, View.ld_unit_zero (S := S512x512) hz]

/-- A last point does the same to the accumulator, -/
theorem sout_C_eq (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x512 .f32) (x1 : Vec F S512x512 .f32) (xs0 : Vec F S1024x512 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread, View.ld_unit_zero (S := S1024x512) hz, View.ld_unit_zero (S := S512x512) hz]

/-- and copies the accumulator, read back after that store, into the result window. -/
theorem out_C_eq (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x512 .f32) (x1 : Vec F S512x512 .f32) (xs0 : Vec F S1024x512 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread, View.ld_unit_zero (S := S1024x512) hz, View.ld_unit_zero (S := S512x512) hz, View.readCov_unit_zero (S := S1024x512) _ hz]

/-! ## The payloads at an entry, over the extended reals -/

/-- The cleared accumulator is zero everywhere. -/
theorem k1_pay1_apply (a : Fin 1024) (s : Fin 512) : (k1_pay1 (F := Ideal)) (ix2 a s) = 0 := by
  unfold k1_pay1
  rw [shapeCast_self]
  exact Ideal.ofBits_zero_f32

theorem lhs1_0 (j : S1024x512.Idx) (q : dot_S1024x512_S512x512_S1024x512_1_1_0_0_n_n.contr.Idx) :
    (dot_S1024x512_S512x512_S1024x512_1_1_0_0_n_n.lhsIdx j q 0).val = (j 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs1_1 (j : S1024x512.Idx) (q : dot_S1024x512_S512x512_S1024x512_1_1_0_0_n_n.contr.Idx) :
    (dot_S1024x512_S512x512_S1024x512_1_1_0_0_n_n.lhsIdx j q 1).val = (q ⟨0, by decide⟩).val :=
  dot_S1024x512_S512x512_S1024x512_1_1_0_0_n_n.lhsIdx_val_of_single rfl j q
theorem rhs1_0 (j : S1024x512.Idx) (q : dot_S1024x512_S512x512_S1024x512_1_1_0_0_n_n.contr.Idx) :
    (dot_S1024x512_S512x512_S1024x512_1_1_0_0_n_n.rhsIdx j q 0).val = (j 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs1_1 (j : S1024x512.Idx) (q : dot_S1024x512_S512x512_S1024x512_1_1_0_0_n_n.contr.Idx) :
    (dot_S1024x512_S512x512_S1024x512_1_1_0_0_n_n.rhsIdx j q 1).val = (q ⟨0, by decide⟩).val :=
  dot_S1024x512_S512x512_S1024x512_1_1_0_0_n_n.rhsIdx_val_of_single rfl j q

/-- The product of the left block with the transposed right block into the zero accumulator, at an entry: row a of the
    left block against row s of the right block. -/
theorem mm1_apply {φ₁ φ₂ : FTy} (x : FVec Ideal S1024x512 φ₁) (y : FVec Ideal S512x512 φ₂) (a : Fin 1024) (s : Fin 512) :
    matmul (F := Ideal) dot_S1024x512_S512x512_S1024x512_1_1_0_0_n_n none x y (constant (F := Ideal) S1024x512 .f32 0x00000000#32) (ix2 a s)
      = ∑ kk : Fin 512, x (ix2 a kk) * y (ix2 s kk) := by
  refine (Ideal.matmul_constant_zero_apply dot_S1024x512_S512x512_S1024x512_1_1_0_0_n_n none x y (ix2 a s)).trans ?_
  rw [← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 a s) ((contrEquiv1 dot_S1024x512_S512x512_S1024x512_1_1_0_0_n_n 512 rfl rfl).symm k) = ix2 a k := funext fun d => Fin.ext (by
    match d with
    | ⟨0, _⟩ => exact lhs1_0 _ _
    | ⟨1, _⟩ => exact (lhs1_1 _ _).trans hk)
  have er : dot_S1024x512_S512x512_S1024x512_1_1_0_0_n_n.rhsIdx (ix2 a s) ((contrEquiv1 dot_S1024x512_S512x512_S1024x512_1_1_0_0_n_n 512 rfl rfl).symm k) = ix2 s k := funext fun d => Fin.ext (by
    match d with
    | ⟨0, _⟩ => exact rhs1_0 _ _
    | ⟨1, _⟩ => exact (rhs1_1 _ _).trans hk)
  rw [el, er]

/-- A point's update at an entry: the accumulator there plus row a of the Q block against row s of the X block (the
    narrowing casts and the casts to the same shape are the identity on extended reals). -/
theorem k1_pay2_apply (x0 : Vec Ideal S1024x512 .f32) (x1 : Vec Ideal S512x512 .f32) (acc : Vec Ideal S1024x512 .f32)
    (a : Fin 1024) (s : Fin 512) :
    k1_pay2 (F := Ideal) x0 x1 acc (ix2 a s) = acc (ix2 a s) + ∑ kk : Fin 512, x0 (ix2 a kk) * x1 (ix2 s kk) := by
  unfold k1_pay2
  rw [shapeCast_self, shapeCast_self]
  refine (addf_apply _ _ _).trans ?_
  refine congrArg (acc (ix2 a s) + ·) ?_
  exact mm1_apply _ _ a s

/-! ## The arrays, their blocks, and the tiles of the contraction -/

variable (V : (c : Dev nD) → (b : Ref sig .tc) → Buf (Elt Ideal) ((c : Thread nD τ).loc b))

/-- Q and X as the region finds them, and the blocks of them a grid point is run on. -/
abbrev qarr (c : Dev nD) : FVec Ideal Cert.Spec.SQ .f32 := V c main_arg2
abbrev xarr (c : Dev nD) : FVec Ideal Cert.Spec.SX .f32 := V c main_v1
abbrev qblk (c : Dev nD) (t : Fin cfg1.N) : Vec Ideal S1024x512 .f32 := iblk1 V c 0 t
abbrev xblk (c : Dev nD) (t : Fin cfg1.N) : Vec Ideal S512x512 .f32 := iblk1 V c 1 t

/-- Point t = 8 n + k reads column block k of Q and block (n, k) of X, and its result block is column block n. -/
theorem idx1 : ∀ t : Fin cfg1.N,
    win1_0.index t (0 : Fin 2) = 0 ∧ win1_0.index t (1 : Fin 2) = t.val % 8
    ∧ win1_1.index t (0 : Fin 2) = t.val / 8 ∧ win1_1.index t (1 : Fin 2) = t.val % 8
    ∧ win1_2.index t (0 : Fin 2) = 0 ∧ win1_2.index t (1 : Fin 2) = t.val / 8 :=
  (by decide +kernel : ∀ t : Fin grid1.N, _)

/-- Entry (a, kk) of the Q block at point 8 n + k is Q[a, 512 k + kk]. -/
theorem qblk_apply (c : Dev nD) (t : Fin cfg1.N) (j : S1024x512.Idx) (i : Cert.Spec.SQ.Idx)
    (h0 : (i 0).val = (j 0).val) (h1 : (i 1).val = t.val % 8 * 512 + (j 1).val) :
    qblk V c t j = qarr V c i := by
  obtain ⟨e0, e1, -⟩ := idx1 t
  show iblk1 V c 0 t j = _
  unfold iblk1
  rw [View.read_apply]
  show V c main_arg2 _ = V c main_arg2 _
  congr 1
  funext d
  apply Fin.ext
  match d with
  | ⟨0, _⟩ => show win1_0.index t 0 * 1024 + 1 * (j 0).val = (i 0).val; rw [e0, h0]; omega
  | ⟨1, _⟩ => show win1_0.index t 1 * 512 + 1 * (j 1).val = (i 1).val; rw [e1, h1]; omega

/-- Entry (s, kk) of the X block at point 8 n + k is X[512 n + s, 512 k + kk]. -/
theorem xblk_apply (c : Dev nD) (t : Fin cfg1.N) (j : S512x512.Idx) (i : Cert.Spec.SX.Idx)
    (h0 : (i 0).val = t.val / 8 * 512 + (j 0).val) (h1 : (i 1).val = t.val % 8 * 512 + (j 1).val) :
    xblk V c t j = xarr V c i := by
  obtain ⟨-, -, e0, e1, -⟩ := idx1 t
  show iblk1 V c 1 t j = _
  unfold iblk1
  rw [View.read_apply]
  show V c main_v1 _ = V c main_v1 _
  congr 1
  funext d
  apply Fin.ext
  match d with
  | ⟨0, _⟩ => show win1_1.index t 0 * 512 + 1 * (j 0).val = (i 0).val; rw [e0, h0]; omega
  | ⟨1, _⟩ => show win1_1.index t 1 * 512 + 1 * (j 1).val = (i 1).val; rw [e1, h1]; omega

/-- Position kk of tile k among eight tiles of 512 contraction positions. -/
abbrev pos (k : Fin 8) (kk : Fin 512) : Fin 4096 := Cert.LibSums.flat (N := 4096) (a := 8) (b := 512) rfl k kk

/-- The part of the contraction that lies in tile k (nothing from k = 8 on): row a of Q against row b of X. -/
def tile (q : FVec Ideal Cert.Spec.SQ .f32) (x : FVec Ideal Cert.Spec.SX .f32) (a : Fin 1024) (b : Fin 4096) (k : ℕ) : EReal :=
  if h : k < 8 then ∑ kk : Fin 512, q (ix2 a (pos ⟨k, h⟩ kk)) * x (ix2 b (pos ⟨k, h⟩ kk)) else 0

/-- The product of a point's Q block with its transposed X block, at an entry, is one tile of the contraction. -/
theorem blockprod (c : Dev nD) (t : Fin cfg1.N) (a : Fin 1024) (s : Fin 512) (b : Fin 4096)
    (hb : b.val = t.val / 8 * 512 + s.val) :
    ∑ kk : Fin 512, qblk V c t (ix2 a kk) * xblk V c t (ix2 s kk) = tile (qarr V c) (xarr V c) a b (t.val % 8) := by
  unfold tile
  rw [dif_pos (Nat.mod_lt _ (by decide))]
  refine Finset.sum_congr rfl fun kk _ => ?_
  rw [qblk_apply V c t (ix2 a kk) (ix2 a (pos ⟨t.val % 8, Nat.mod_lt _ (by decide)⟩ kk)) rfl rfl,
    xblk_apply V c t (ix2 s kk) (ix2 b (pos ⟨t.val % 8, Nat.mod_lt _ (by decide)⟩ kk)) hb rfl]

/-- The eight tiles are the plain sum over the 4096 positions. -/
theorem sum_tiles8 (q : FVec Ideal Cert.Spec.SQ .f32) (x : FVec Ideal Cert.Spec.SX .f32) (a : Fin 1024) (b : Fin 4096) :
    ∑ k ∈ Finset.range 8, tile q x a b k = Cert.Spec.QXT q x (ix2 a b) := by
  rw [Finset.sum_range]
  unfold Cert.Spec.QXT
  refine ((Cert.LibSums.sum_tiles (N := 4096) (a := 8) (b := 512) rfl
    (fun p : Fin 4096 => q (ix2 a p) * x (ix2 b p))).trans ?_).symm
  refine Finset.sum_congr rfl fun k _ => ?_
  unfold tile
  rw [dif_pos k.isLt]

/-! ## The accumulator after every point -/

/-- After point t = 8 n + k the accumulator holds, at (a, s), the tiles 0 … k of row a of Q against row 512 n + s of X:
    a first point starts from zero, a later one adds its tile to what the point before left. -/
theorem acc_eq (c : Dev nD) (n : ℕ) : ∀ (hn : n < cfg1.N) (a : Fin 1024) (s : Fin 512) (b : Fin 4096),
    b.val = n / 8 * 512 + s.val →
    (outsAt1 V c n hn).2 (ix2 a s) = ∑ k ∈ Finset.range (n % 8 + 1), tile (qarr V c) (xarr V c) a b k := by
  induction n with
  | zero =>
    intro hn a s b hb
    rw [outsAt1_A V c ⟨0, hn⟩ (Nat.zero_mod 8) (by show ¬(0 % 8 = 7); decide)]
    dsimp only
    rw [sout_A_eq]
    refine (k1_pay2_apply (qblk V c ⟨0, hn⟩) (xblk V c ⟨0, hn⟩) (k1_pay1 (F := Ideal)) a s).trans ?_
    rw [k1_pay1_apply, zero_add, blockprod V c ⟨0, hn⟩ a s b hb]
    show _ = ∑ k ∈ Finset.range 1, _
    rw [Finset.sum_range_one]
    rfl
  | succ n ih =>
    intro hn a s b hb
    have hN : n + 1 < 64 := lt_of_lt_of_eq hn (show cfg1.N = 64 from N_1)
    by_cases h0 : (n + 1) % 8 = 0
    · have h1 : ¬(n + 1) % 8 = 7 := by omega
      rw [outsAt1_A V c ⟨n + 1, hn⟩ h0 h1]
      dsimp only
      rw [sout_A_eq]
      refine (k1_pay2_apply (qblk V c ⟨n + 1, hn⟩) (xblk V c ⟨n + 1, hn⟩) (k1_pay1 (F := Ideal)) a s).trans ?_
      rw [k1_pay1_apply, zero_add, blockprod V c ⟨n + 1, hn⟩ a s b hb]
      show tile _ _ a b ((n + 1) % 8) = ∑ k ∈ Finset.range ((n + 1) % 8 + 1), _
      rw [h0, Finset.sum_range_one]
    · have hprev : (outsAt1 V c n (Nat.lt_of_succ_lt hn)).2 (ix2 a s)
          = ∑ k ∈ Finset.range ((n + 1) % 8), tile (qarr V c) (xarr V c) a b k := by
        rw [ih (Nat.lt_of_succ_lt hn) a s b (by rw [hb]; omega)]
        congr 2
        omega
      have hstep : k1_pay2 (qblk V c ⟨n + 1, hn⟩) (xblk V c ⟨n + 1, hn⟩) (outsAt1 V c n (Nat.lt_of_succ_lt hn)).2 (ix2 a s)
          = ∑ k ∈ Finset.range ((n + 1) % 8 + 1), tile (qarr V c) (xarr V c) a b k := by
        refine (k1_pay2_apply _ _ _ a s).trans ?_
        rw [hprev, blockprod V c ⟨n + 1, hn⟩ a s b hb, Finset.sum_range_succ]
      by_cases h1 : (n + 1) % 8 = 7
      · rw [outsAt1_C V c ⟨n + 1, hn⟩ h0 h1]
        dsimp only
        rw [sout_C_eq]
        exact hstep
      · rw [outsAt1_B V c ⟨n + 1, hn⟩ h0 h1]
        dsimp only
        rw [sout_B_eq]
        exact hstep

/-- At a last point the result window is left holding what the accumulator holds. -/
theorem out_eq_acc (c : Dev nD) (t : Fin cfg1.N) (h1 : t.val % 8 = 7) :
    (outsAt1 V c t.val t.isLt).1 = (outsAt1 V c t.val t.isLt).2 := by
  have h0 : ¬t.val % 8 = 0 := by omega
  rw [outsAt1_C V c t h0 h1]
  dsimp only
  rw [out_C_eq, sout_C_eq]

/-- So a last point leaves in the result window, at (a, s), the whole contraction of row a of Q against row
    512 n + s of X. -/
theorem out_at (c : Dev nD) (t : Fin cfg1.N) (h1 : t.val % 8 = 7) (j : S1024x512.Idx) (i : Cert.Spec.SQ.Idx)
    (h0 : (i 0).val = (j 0).val) (hs : (i 1).val = t.val / 8 * 512 + (j 1).val) :
    (outsAt1 V c t.val t.isLt).1 j = Cert.Spec.QXT (qarr V c) (xarr V c) i := by
  obtain ⟨a, s, rfl⟩ : ∃ (a : Fin 1024) (s : Fin 512), j = ix2 a s := ⟨j 0, j 1, eq_ix2 j⟩
  obtain ⟨a', b, rfl⟩ : ∃ (a' : Fin 1024) (b : Fin 4096), i = ix2 a' b := ⟨i 0, i 1, eq_ix2 i⟩
  obtain rfl : a = a' := (Fin.ext h0).symm
  rw [out_eq_acc V c t h1, acc_eq V c t.val t.isLt a s b hs, h1]
  exact sum_tiles8 (qarr V c) (xarr V c) a b

/-! ## From the blocks to the array -/

/-- What a last point writes back is its column block of Q · Xᵀ. -/
theorem flushed_eq (c : Dev nD) (t : Fin cfg1.N) (hf : (cfg1.win 2).flush t = true) :
    (dat1 V c).flushed 2 t = ((cfg1.win 2).blk t).view.read (Elt Ideal) (Cert.Spec.QXT (qarr V c) (xarr V c)) := by
  have h7 : t.val % 8 = 7 := (flush1_2 t).mp hf
  obtain ⟨-, -, -, -, e0, e1⟩ := idx1 t
  show (cfg1.win 2).cut (grid1.coords t) ((dat1 V c).after 2 t) = _
  rw [after1_2]
  funext j
  rw [View.read_apply]
  refine out_at V c t h7 j _ ?_ ?_
  · show win1_2.index t 0 * 1024 + 1 * (j 0).val = _; rw [e0]; omega
  · show win1_2.index t 1 * 512 + 1 * (j 1).val = _; rw [e1]; omega

/-- Column b of the result lies in the block the point 8 (b / 512) + 7 writes back. -/
theorem cover (i : Cert.Spec.SQ.Idx) :
    ∃ t : Fin cfg1.N, (cfg1.win 2).flush t = true ∧ i ∈ ((cfg1.win 2).blk t).view.set := by
  have hi0 : (i 0).val < 1024 := idx2_lt0 i
  have hi1 : (i 1).val < 4096 := idx2_lt1 i
  obtain ⟨t, ht⟩ : ∃ t : Fin cfg1.N, t.val = 8 * ((i 1).val / 512) + 7 :=
    ⟨⟨8 * ((i 1).val / 512) + 7, by have hN : cfg1.N = 64 := N_1; omega⟩, rfl⟩
  obtain ⟨-, -, -, -, e0, e1⟩ := idx1 t
  refine ⟨t, (flush1_2 t).mpr (by omega), ?_⟩
  show i ∈ ((View.whole main_v3).slice (win1_2.rect t)).set
  rw [View.set_slice_whole, Rect.mem_set_unit]
  intro d
  match d with
  | ⟨0, _⟩ => show win1_2.index t 0 * 1024 ≤ (i 0).val ∧ (i 0).val < win1_2.index t 0 * 1024 + 1024; rw [e0]; omega
  | ⟨1, _⟩ => show win1_2.index t 1 * 512 ≤ (i 1).val ∧ (i 1).val < win1_2.index t 1 * 512 + 512; rw [e1]; omega

end R1V

variable (V : (c : Dev nD) → (b : Ref sig .tc) → Buf (Elt Ideal) ((c : Thread nD τ).loc b))

/-- The region's result array ends holding Q · Xᵀ of the two arrays it found. -/
theorem arrAt1_2 (c : Dev nD) :
    (dat1 (F := Ideal) V c).arrAt 2 cfg1.N = Cert.Spec.QXT (V c main_arg2) (V c main_v1) :=
  (dat1 (F := Ideal) V c).arrAt_eq_of_cover 2 (Cert.Spec.QXT (R1V.qarr V c) (R1V.xarr V c)) (R1V.flushed_eq V c) (fun i => R1V.cover i)

end Cert.KernelIdeal.Frm

end
-- ==== Proof.KI.R2Value.lean ====
/-
  The value of the third product with the triangle mask, at exact values. Grid point t = 8 i + j holds row block i of
  the left factor A (512 × 1024) and column block j of the right factor B (1024 × 512); the body multiplies them and
  keeps entry (r, s) only where the global column 512 j + s is below the global row 512 i + r, writing zero elsewhere.
  First the body's arithmetic at one entry: the product into the zero accumulator is the plain sum over the 1024 inner
  positions (the narrowing to bf16 and the reshapes are the identity on extended reals), and the mask's comparison of
  32-bit words is the comparison of the numbers, since 512 · 7 + 511 wraps nothing. Then the blocks: block (i, j) of the
  result reads A at rows 512 i + r and B at columns 512 j + s, so what each point writes back is its block of
  tril (A · B); the 64 blocks tile the 4096 × 4096 array (entry (a, b) lies in the block of point 8 (a / 512) + b / 512),
  hence the array ends holding tril (A · B).
-/
import proofs.«107991_j70995809403345_1_alg».proof.Proof.KI.R2Frame
import proofs.«107991_j70995809403345_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

namespace Cert.KernelIdeal.Frm

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

namespace R2V

/-! ## The product's index maps, axis by axis -/

theorem lhs_mm3_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_mm3_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_mm3_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_mm3_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into the zero accumulator, at exact values and at entry (r, s): the sum over the 1024 inner positions
    of the left factor's row r times the right factor's column s. -/
theorem mm3_apply {φ₁ φ₂ : FTy} (a : FVec Ideal S512x1024 φ₁) (b : FVec Ideal S1024x512 φ₂) (r s : Fin 512) :
    matmul (F := Ideal) dot_S512x1024_S1024x512_S512x512_1_0_0_1_n_n none a b (constant (F := Ideal) S512x512 .f32 0x00000000#32) (ix2 r s)
      = ∑ l : Fin 1024, a (ix2 r l) * b (ix2 l s) := by
  refine (Ideal.matmul_constant_zero_apply dot_S512x1024_S1024x512_S512x512_1_0_0_1_n_n none a b (ix2 r s)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r s) ((contrEquiv1 dot_S512x1024_S1024x512_S512x512_1_0_0_1_n_n 1024 rfl rfl).symm k) = ix2 r k := funext fun a => Fin.ext (by
    match a with
    | ⟨0, _⟩ => exact lhs_mm3_0 _ _
    | ⟨1, _⟩ => exact (lhs_mm3_1 _ _).trans hk)
  have er : dot_S512x1024_S1024x512_S512x512_1_0_0_1_n_n.rhsIdx (ix2 r s) ((contrEquiv1 dot_S512x1024_S1024x512_S512x512_1_0_0_1_n_n 1024 rfl rfl).symm k) = ix2 k s := funext fun a => Fin.ext (by
    match a with
    | ⟨0, _⟩ => exact (rhs_mm3_0 _ _).trans hk
    | ⟨1, _⟩ => exact rhs_mm3_1 _ _)
  rw [el, er]

/-! ## The mask's words -/

/-- Block number times 512 plus the position inside the block, on 32-bit words, is that number: nothing wraps. -/
theorem toNat_block_word (i : Fin 8) (r : Fin 512) :
    (IntOp.addi (Scalar.muli (BitVec.ofNat 32 i.val) 512#32) (BitVec.ofNat 32 r.val)).toNat = 512 * i.val + r.val := by
  have hi := i.isLt; have hr := r.isLt
  show (BitVec.ofNat 32 i.val * 512#32 + BitVec.ofNat 32 r.val).toNat = _
  simp only [BitVec.toNat_add, BitVec.toNat_mul, BitVec.toNat_ofNat]
  omega

/-- The mask's bit at block (i, j), entry (r, s): set exactly when the global column is below the global row. -/
theorem mask_bit_iff (i j : Fin 8) (r s : Fin 512) :
    IntOp.cmpi .slt (IntOp.addi (Scalar.muli (BitVec.ofNat 32 j.val) 512#32) (BitVec.ofNat 32 s.val))
        (IntOp.addi (Scalar.muli (BitVec.ofNat 32 i.val) 512#32) (BitVec.ofNat 32 r.val)) = 1#1
      ↔ 512 * j.val + s.val < 512 * i.val + r.val := by
  have hi := i.isLt; have hr := r.isLt; have hj := j.isLt; have hs := s.isLt
  rw [StableHlo.Predicate.slt_iff_toNat (by rw [toNat_block_word]; omega) (by rw [toNat_block_word]; omega), toNat_block_word, toNat_block_word]

/-! ## The body's arithmetic at an entry -/

/-- The body's value at grid coordinates (i, j), entry (r, s) of the block, at exact values: the product's entry where the
    global column 512 j + s is below the global row 512 i + r, zero elsewhere. -/
theorem mask_word_apply (i : grid2.Coords) (r s : Fin 512) :
    cmpi .slt (addi (broadcast S512x512 (Scalar.muli (BitVec.ofNat 32 (i 1).val) 512#32)) (iota .tc S512x512 32 [1] iota_S512x512_d1_w32))
        (addi (broadcast S512x512 (Scalar.muli (BitVec.ofNat 32 (i 0).val) 512#32)) (iota .tc S512x512 32 [0] iota_S512x512_d0_w32)) (ix2 r s)
      = IntOp.cmpi .slt (IntOp.addi (Scalar.muli (BitVec.ofNat 32 (i 1).val) 512#32) (BitVec.ofNat 32 s.val))
          (IntOp.addi (Scalar.muli (BitVec.ofNat 32 (i 0).val) 512#32) (BitVec.ofNat 32 r.val)) := by
  show IntOp.cmpi .slt (IntOp.addi _ (iota .tc S512x512 32 [1] iota_S512x512_d1_w32 (ix2 r s)))
      (IntOp.addi _ (iota .tc S512x512 32 [0] iota_S512x512_d0_w32 (ix2 r s))) = _
  rw [iota_single_apply, iota_single_apply]
  rfl

/-- The product of the two blocks (the narrowing to bf16 and the reshapes are the identity at exact values). -/
theorem prod_apply (x0 : Vec Ideal S512x1024 .f32) (x1 : Vec Ideal S1024x512 .f32) (r s : Fin 512) :
    matmul (F := Ideal) dot_S512x1024_S1024x512_S512x512_1_0_0_1_n_n none
        (truncf .bf16 (shapeCast S512x1024 x0 shapeCasts_S512x1024_S512x1024) bitsLt_bf16_f32)
        (truncf .bf16 (shapeCast S1024x512 x1 shapeCasts_S1024x512_S1024x512) bitsLt_bf16_f32)
        (constant (F := Ideal) S512x512 .f32 0x00000000#32) (ix2 r s)
      = ∑ l : Fin 1024, x0 (ix2 r l) * x1 (ix2 l s) := by
  refine (mm3_apply _ _ r s).trans ?_
  refine Finset.sum_congr rfl fun l _ => ?_
  rw [truncf_apply, truncf_apply, shapeCast_self, shapeCast_self]

/-- The body's value at grid coordinates (i, j), entry (r, s) of the block, at exact values: the product's entry where the
    global column 512 j + s is below the global row 512 i + r, zero elsewhere. -/
theorem k2_pay1_apply (i : grid2.Coords) (x0 : Vec Ideal S512x1024 .f32) (x1 : Vec Ideal S1024x512 .f32) (r s : Fin 512) :
    k2_pay1 (F := Ideal) i x0 x1 (ix2 r s)
      = if 512 * (i 1).val + s.val < 512 * (i 0).val + r.val then ∑ l : Fin 1024, x0 (ix2 r l) * x1 (ix2 l s) else 0 := by
  unfold k2_pay1
  refine (select_apply _ _ _ (ix2 r s)).trans ?_
  rw [mask_word_apply i r s, prod_apply x0 x1 r s]
  by_cases h : 512 * (i 1).val + s.val < 512 * (i 0).val + r.val
  · rw [if_pos h, (mask_bit_iff (i 0) (i 1) r s).mpr h, select_one]
  · rw [if_neg h, eq_zero_of_ne_one (fun e => h ((mask_bit_iff (i 0) (i 1) r s).mp e)), select_zero]
    exact Ideal.ofBits_zero_f32

/-! ## From blocks to the array -/

theorem hz2 : (![0, 0] : Fin 2 → Nat) = fun _ => 0 := funext fun a => by fin_cases a <;> rfl

/-- What the body leaves in the result window, at an entry: the masked product of the two input blocks. -/
theorem out2_2_apply (i : grid2.Coords) (x0 : Vec Ideal S512x1024 .f32) (x1 : Vec Ideal S1024x512 .f32) (y : S512x512.Idx) :
    out2_2 (F := Ideal) i x0 x1 y
      = if 512 * (i 1).val + (y 1).val < 512 * (i 0).val + (y 0).val then ∑ l : Fin 1024, x0 (ix2 (y 0) l) * x1 (ix2 l (y 1)) else 0 := by
  obtain ⟨r, s, rfl⟩ : ∃ (r s : Fin 512), y = ix2 r s := ⟨y 0, y 1, eq_ix2 y⟩
  unfold out2_2
  rw [View.canon_unit_zero hz2]
  simp only [View.ld_unit_zero (S := S512x1024) hz2, View.ld_unit_zero (S := S1024x512) hz2]
  exact k2_pay1_apply i x0 x1 r s

/-- The printed index maps over the grid: point t = 8 i + j reads row block i of the left factor, column block j of the
    right factor, and writes block (i, j). -/
theorem idx_facts2 : ∀ t : Fin cfg2.N,
    win2_0.index t (0 : Fin 2) = t.val / 8 ∧ win2_0.index t (1 : Fin 2) = 0
    ∧ win2_1.index t (0 : Fin 2) = 0 ∧ win2_1.index t (1 : Fin 2) = t.val % 8
    ∧ win2_2.index t (0 : Fin 2) = t.val / 8 ∧ win2_2.index t (1 : Fin 2) = t.val % 8
    ∧ (grid2.coords t 0).val = t.val / 8 ∧ (grid2.coords t 1).val = t.val % 8 :=
  (by decide +kernel : ∀ t : Fin grid2.N, _)

variable (V : (c : Dev nD) → (b : Ref sig .tc) → Buf (Elt Ideal) ((c : Thread nD τ).loc b))

/-- The two factors as the region finds them, and the block of each at a point. -/
abbrev aArr (c : Dev nD) : FVec Ideal Cert.Spec.SP .f32 := V c main_v2
abbrev bArr (c : Dev nD) : FVec Ideal Cert.Spec.SQ .f32 := V c main_v3
abbrev aBlk (c : Dev nD) (t : Fin cfg2.N) : Vec Ideal S512x1024 .f32 := iblk2 V c 0 t
abbrev bBlk (c : Dev nD) (t : Fin cfg2.N) : Vec Ideal S1024x512 .f32 := iblk2 V c 1 t

/-- The left factor's block at point t is rows 512 (t / 8) … of the array. -/
theorem aBlk_apply (c : Dev nD) (t : Fin cfg2.N) (x : S512x1024.Idx) (k : Cert.Spec.SP.Idx)
    (hk0 : (k 0).val = 512 * (t.val / 8) + (x 0).val) (hk1 : (k 1).val = (x 1).val) :
    aBlk V c t x = aArr V c k := by
  obtain ⟨e0, e1, -⟩ := idx_facts2 t
  show iblk2 V c 0 t x = V c main_v2 k
  unfold iblk2
  rw [View.read_apply]
  show V c main_v2 _ = V c main_v2 _
  congr 1
  funext a
  apply Fin.ext
  match a with
  | ⟨0, _⟩ => show win2_0.index t 0 * 512 + 1 * (x 0).val = (k 0).val; rw [e0, hk0]; omega
  | ⟨1, _⟩ => show win2_0.index t 1 * 1024 + 1 * (x 1).val = (k 1).val; rw [e1, hk1]; omega

/-- The right factor's block at point t is columns 512 (t % 8) … of the array. -/
theorem bBlk_apply (c : Dev nD) (t : Fin cfg2.N) (x : S1024x512.Idx) (k : Cert.Spec.SQ.Idx)
    (hk0 : (k 0).val = (x 0).val) (hk1 : (k 1).val = 512 * (t.val % 8) + (x 1).val) :
    bBlk V c t x = bArr V c k := by
  obtain ⟨-, -, e0, e1, -⟩ := idx_facts2 t
  show iblk2 V c 1 t x = V c main_v3 k
  unfold iblk2
  rw [View.read_apply]
  show V c main_v3 _ = V c main_v3 _
  congr 1
  funext a
  apply Fin.ext
  match a with
  | ⟨0, _⟩ => show win2_1.index t 0 * 1024 + 1 * (x 0).val = (k 0).val; rw [e0, hk0]; omega
  | ⟨1, _⟩ => show win2_1.index t 1 * 512 + 1 * (x 1).val = (k 1).val; rw [e1, hk1]; omega

/-- The specification's masked product of the two factors as the region finds them. -/
abbrev trilS (c : Dev nD) : FVec Ideal Cert.Spec.SX .f32 := Cert.Spec.tril (Cert.Spec.S (aArr V c) (bArr V c))

/-- What point t writes back is block t of the specification's masked product. -/
theorem flushed2_eq (c : Dev nD) (t : Fin cfg2.N) :
    (dat2 (F := Ideal) V c).flushed 2 t = ((cfg2.win 2).blk t).view.read (Elt Ideal) (trilS V c) := by
  show (cfg2.win 2).cut (grid2.coords t) ((dat2 (F := Ideal) V c).after 2 t) = _
  rw [after2_2]
  obtain ⟨-, -, -, -, e0, e1, g0, g1⟩ := idx_facts2 t
  funext j
  have hj0 : (j 0).val < 512 := (j 0).isLt
  have hj1 : (j 1).val < 512 := (j 1).isLt
  refine (out2_2_apply (grid2.coords t) (aBlk V c t) (bBlk V c t) ((cfg2.win 2).xinj (grid2.coords t) j)).trans ?_
  rw [View.read_apply]
  show _ = Cert.Spec.tril (Cert.Spec.S (aArr V c) (bArr V c)) (((cfg2.win 2).blk t).view.emb j)
  have c0 : ((((cfg2.win 2).blk t).view.emb j) 0).val = 512 * (t.val / 8) + (j 0).val := by
    show win2_2.index t 0 * 512 + 1 * (j 0).val = _; rw [e0]; omega
  have c1 : ((((cfg2.win 2).blk t).view.emb j) 1).val = 512 * (t.val % 8) + (j 1).val := by
    show win2_2.index t 1 * 512 + 1 * (j 1).val = _; rw [e1]; omega
  unfold Cert.Spec.tril Cert.Spec.S
  dsimp only
  refine if_congr ?_ (Finset.sum_congr rfl fun l _ => ?_) rfl
  · show 512 * (grid2.coords t 1).val + (j 1).val < 512 * (grid2.coords t 0).val + (j 0).val ↔ _
    rw [c0, c1, g0, g1]
  · congr 1
    · exact aBlk_apply V c t _ _ c0 rfl
    · exact bBlk_apply V c t _ _ rfl c1

/-- Every entry (a, b) of the result is in the block the point 8 (a / 512) + b / 512 writes back. -/
theorem cover2 (i : Cert.Spec.SX.Idx) :
    ∃ t : Fin cfg2.N, (cfg2.win 2).flush t = true ∧ i ∈ ((cfg2.win 2).blk t).view.set := by
  have h0 : (i 0).val < 4096 := idx2_lt0 i
  have h1 : (i 1).val < 4096 := idx2_lt1 i
  obtain ⟨t, ht⟩ : ∃ t : Fin cfg2.N, t.val = 8 * ((i 0).val / 512) + (i 1).val / 512 :=
    ⟨⟨8 * ((i 0).val / 512) + (i 1).val / 512, by have hN : cfg2.N = 64 := N_2; omega⟩, rfl⟩
  obtain ⟨-, -, -, -, e0, e1, -⟩ := idx_facts2 t
  refine ⟨t, flush2_2 t, ?_⟩
  show i ∈ ((View.whole main_v4).slice (win2_2.rect t)).set
  rw [View.set_slice_whole, Rect.mem_set_unit]
  intro a
  match a with
  | ⟨0, _⟩ => show win2_2.index t 0 * 512 ≤ (i 0).val ∧ (i 0).val < win2_2.index t 0 * 512 + 512; rw [e0]; omega
  | ⟨1, _⟩ => show win2_2.index t 1 * 512 ≤ (i 1).val ∧ (i 1).val < win2_2.index t 1 * 512 + 512; rw [e1]; omega

end R2V

variable (V : (c : Dev nD) → (b : Ref sig .tc) → Buf (Elt Ideal) ((c : Thread nD τ).loc b))

/-- The region's result array ends at the strictly lower triangle of the product of the two factors it found. -/
theorem arrAt2_2 (c : Dev nD) :
    (dat2 (F := Ideal) V c).arrAt 2 cfg2.N = Cert.Spec.tril (Cert.Spec.S (V c main_v2) (V c main_v3)) :=
  (dat2 (F := Ideal) V c).arrAt_eq_of_cover 2 (R2V.trilS V c) (fun t _ => R2V.flushed2_eq V c t) (fun i => R2V.cover2 i)

end Cert.KernelIdeal.Frm

end
-- ==== Proof.KI.Value.lean ====
/-
  The result array of the idealized kernel, read back through @main: the last product's result block by block is the
  strictly lower triangle of (left factor) · (right factor); the left factor is what the first product left in its
  result array, X · P; the right factor what the second left, Q · Xᵀ; X is what the slice and the reshape made of
  `features`; and P and Q are the arguments themselves, which no item writes. Composed: the specification's `out`.
-/
import proofs.«107991_j70995809403345_1_alg».proof.Proof.KI.Run
import proofs.«107991_j70995809403345_1_alg».proof.Proof.KI.HostValue
import proofs.«107991_j70995809403345_1_alg».proof.Proof.KI.R0Value
import proofs.«107991_j70995809403345_1_alg».proof.Proof.KI.R1Value
import proofs.«107991_j70995809403345_1_alg».proof.Proof.KI.R2Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- After the slice and the reshape `main_v1` holds X. -/
theorem V1_main_v1 (c : Dev nD) : V1 m ρ c main_v1 = Cert.Spec.X (m ((c : Thread nD τ).loc main_arg0)) := host_v1 m c

/-- The first product reads X through an input window: it is still there afterwards. -/
theorem V2_main_v1 (c : Dev nD) : V2 m ρ c main_v1 = Cert.Spec.X (m ((c : Thread nD τ).loc main_arg0)) :=
  (W2_arr m ρ c 0).trans (((dat0 (V1 m ρ) c).arrAt_in 0 rfl _).trans ((A_eq0 (V1 m ρ) c 0).trans (V1_main_v1 m ρ c)))

/-- The first product's result: X · P. The second product does not touch it. -/
theorem V3_main_v2 (c : Dev nD) : V3 m ρ c main_v2 = Cert.Spec.XP (Cert.Spec.X (m ((c : Thread nD τ).loc main_arg0))) (m ((c : Thread nD τ).loc main_arg1)) :=
  (W3_of_ne m ρ c main_v2 (by decide)).trans ((W2_arr m ρ c 2).trans ((arrAt0_2 (V1 m ρ) c).trans (by
    rw [V1_main_v1 m ρ c, show V1 m ρ c main_arg1 = m ((c : Thread nD τ).loc main_arg1) from W1_main_arg1 m ρ c])))

/-- The second product's result: Q · Xᵀ. -/
theorem V3_main_v3 (c : Dev nD) : V3 m ρ c main_v3 = Cert.Spec.QXT (m ((c : Thread nD τ).loc main_arg2)) (Cert.Spec.X (m ((c : Thread nD τ).loc main_arg0))) :=
  (W3_arr m ρ c 2).trans ((arrAt1_2 (V2 m ρ) c).trans (by
    rw [V2_main_v1 m ρ c, show V2 m ρ c main_arg2 = m ((c : Thread nD τ).loc main_arg2) from W2_main_arg2 m ρ c]))

/-- The third product's result, the program's: the specification's `out` of the three arguments. -/
theorem W4_main_v4 (c : Dev nD) :
    W4 m ρ c (Proc.devRef .tc main_v4) = Cert.Spec.out (m ((c : Thread nD τ).loc main_arg0)) (m ((c : Thread nD τ).loc main_arg1)) (m ((c : Thread nD τ).loc main_arg2)) :=
  (W4_arr m ρ c 2).trans ((arrAt2_2 (V3 m ρ) c).trans (by rw [V3_main_v2 m ρ c, V3_main_v3 m ρ c]; rfl))

/-- The idealized kernel runs, ends with its result at the specification's `out` of the arguments, and leaves the
    arguments unchanged. -/
theorem run_value : θ_run (defs (F := Ideal)) (onTc (τ := τ) (main (F := Ideal))) ⟨m, fun _ => 0, ρ⟩ (fun r => ∀ c : Dev nD,
      r.2.mem ((c.tc : Thread nD τ).loc main_v4) = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_main_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Frm

end
-- ==== Proof.LibTRef.lean ====
/- Typed references to tensor values' buffers (`StableHlo.TRef`): the two transports between contents at the
   value's type and contents of the buffer are inverse to each other, and at a reference whose buffer type is the
   value's type itself each of them is the identity. With these a composed term of a module-local function's
   operations (every value wrapped in such a round trip) is brought to the plain composed term by rewriting,
   without unfolding any operation. -/
import Idealize.ShloMosaic.Lib.StableHlo

namespace Cert.LibTRef

open Idealize.ShloMosaic Idealize.ShloMosaic.StableHlo

variable {sig : RefSig} {Val : EltTy → Type}

/-- Contents at the value's type, moved to the buffer's type and back, are unchanged: both moves are casts along
    the reference's type equation `x.ty_eq` and its inverse. -/
theorem ofBuf_toBuf {T : BufTy} (x : TRef sig T) (v : T.Contents Val) : x.ofBuf (x.toBuf v) = v := by
  obtain ⟨r, h, h2, h3⟩ := x; subst h; rfl

/-- The other round trip: contents of the buffer, read at the value's type and moved back, are unchanged. -/
theorem toBuf_ofBuf {T : BufTy} (x : TRef sig T) (v : x.ref.ty.Contents Val) : x.toBuf (x.ofBuf v) = v := by
  obtain ⟨r, h, h2, h3⟩ := x; subst h; rfl

/-- At a reference taken at its own buffer type (the type equation is `r.ty = r.ty`) the move to the buffer is
    the identity. A literal reference `TRef.of r` at the literal type `T` its signature gives it unifies with this
    form, since `r.ty` computes to `T`. -/
theorem toBuf_of (r : Ref sig .tc) (h : r.ty = r.ty) (h2 : r.space ≠ .host) (h3 : r.isScoped = false)
    (v : r.ty.Contents Val) : (TRef.of (T := r.ty) r h h2 h3).toBuf v = v := rfl

/-- At a reference taken at its own buffer type the read at the value's type is the identity. -/
theorem ofBuf_of (r : Ref sig .tc) (h : r.ty = r.ty) (h2 : r.space ≠ .host) (h3 : r.isScoped = false)
    (v : r.ty.Contents Val) : (TRef.of (T := r.ty) r h h2 h3).ofBuf v = v := rfl

end Cert.LibTRef
-- ==== Proof.RefValue.lean ====
/-
  The reference's result is the specification's.

  The reference takes rows 1 … 4096 of the one batch of `features` (a slice, then a reshape that drops the batch axis of
  size one): this is X. Each of its three `dot_general`s contracts one axis of each operand, and over the extended
  reals is the plain sum over that axis: X · P, then Q · Xᵀ (the transpose only swaps the two coordinates of X), then
  the product S of the two. Its last step keeps S[a, b] where the 32-bit signed comparison (a + (−1)) ≥ b holds and puts
  0.0 elsewhere; for a, b < 4096 that comparison holds exactly when b < a (for a = 0 the left side is −1, below every
  column), so the result is the strictly lower triangle of S: `Cert.Spec.out`.
-/
import proofs.«107991_j70995809403345_1_alg».proof.Proof.RefRead
import proofs.«107991_j70995809403345_1_alg».proof.Proof.Spec
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRead Idealize.ShloMosaic.ValueIdx

/-! ## The mask's bit -/

/-- The word a + (−1) (32 bits, a < 4096) as a natural number: a + 2³² − 1 reduced modulo 2³². -/
theorem toNat_pred_word (a : Nat) (ha : a < 4096) :
    (BitVec.ofNat 32 a + BitVec.ofNat 32 4294967295).toNat = (a + 4294967295) % 4294967296 := by
  rw [BitVec.toNat_add, BitVec.toNat_ofNat, BitVec.toNat_ofNat]; omega

/-- Read as a signed number that word is a − 1, also at a = 0, where it is −1. -/
theorem toInt_pred_word (a : Nat) (ha : a < 4096) :
    (BitVec.ofNat 32 a + BitVec.ofNat 32 4294967295).toInt = (a : Int) - 1 := by
  rw [BitVec.toInt_eq_toNat_cond, toNat_pred_word a ha]
  split <;> omega

/-- For a row a and a column b below 4096 the signed comparison (a + (−1)) ≥ b holds exactly when b < a. -/
theorem mask_bit (a b : Nat) (ha : a < 4096) (hb : b < 4096) :
    IntOp.cmpi .sge (IntOp.addi (BitVec.ofNat 32 a) (BitVec.ofNat 32 4294967295)) (BitVec.ofNat 32 b) = 1#1 ↔ b < a := by
  unfold IntOp.cmpi IntOp.addi
  show BitVec.ofBool ((BitVec.ofNat 32 b).sle (BitVec.ofNat 32 a + BitVec.ofNat 32 4294967295)) = 1#1 ↔ b < a
  rw [Predicate.ofBool_eq_one_iff, BitVec.sle, decide_eq_true_eq, Predicate.toInt_ofNat_small b (by omega), toInt_pred_word a ha]
  omega

/-! ## The stages, index by index -/

variable (x0 : (⟨S1x4097x4096, .f32⟩ : BufTy).Contents (Elt Ideal)) (x1 : (⟨S4096x1024, .f32⟩ : BufTy).Contents (Elt Ideal))
  (x2 : (⟨S1024x4096, .f32⟩ : BufTy).Contents (Elt Ideal))

/-- The slice and the reshape: entry (a, k) is entry (0, a + 1, k) of `features`, since (a · 4096 + k) / 4096 = a and
    (a · 4096 + k) mod 4096 = k for k < 4096. -/
theorem v1_apply (i : S4096x4096.Idx) : val_main_v1 (F := Ideal) x0 i = Cert.Spec.X x0 i := by
  rw [val_main_v1_apply, val_main_v0_apply]
  show x0 _ = x0 _
  have h0 : (i 0).val < 4096 := idx2_lt0 i
  have h1 : (i 1).val < 4096 := idx2_lt1 i
  refine congrArg x0 (funext fun a => ?_)
  match a with
  | ⟨0, _⟩ => exact Fin.ext (by show (0 : Nat) = 0; rfl)
  | ⟨1, _⟩ => exact Fin.ext (by show 1 + ((i 0).val * 4096 + (i 1).val) / 4096 % 4096 = (i 0).val + 1; omega)
  | ⟨2, _⟩ => exact Fin.ext (by show ((i 0).val * 4096 + (i 1).val) % 4096 = (i 1).val; omega)

/-- The first product: entry (a, l) is Σ_k X[a, k] · P[k, l]. -/
theorem v2_apply (i : S4096x1024.Idx) :
    val_main_v2 (F := Ideal) x0 x1 i = Cert.Spec.XP (Cert.Spec.X x0) x1 i := by
  rw [val_main_v2_apply]
  show _ = ∑ k : Fin 4096, Cert.Spec.X x0 (ix2 (i 0) k) * x1 (ix2 k (i 1))
  refine Finset.sum_congr rfl fun k _ => ?_
  have el : lidx_main_v2 i k = ix2 (i 0) k := funext fun a => match a with | ⟨0, _⟩ => rfl | ⟨1, _⟩ => rfl
  have er : ridx_main_v2 i k = ix2 k (i 1) := funext fun a => match a with | ⟨0, _⟩ => rfl | ⟨1, _⟩ => rfl
  rw [v1_apply, el, er]; rfl

/-- The transpose: entry (k, b) is X[b, k]. -/
theorem v3_apply (i : S4096x4096.Idx) : val_main_v3 (F := Ideal) x0 i = Cert.Spec.X x0 (ix2 (i 1) (i 0)) := by
  rw [val_main_v3_apply, v1_apply]
  exact congrArg (Cert.Spec.X x0) (funext fun a => match a with | ⟨0, _⟩ => rfl | ⟨1, _⟩ => rfl)

/-- The second product: entry (l, b) is Σ_k Q[l, k] · X[b, k]. -/
theorem v4_apply (i : S1024x4096.Idx) :
    val_main_v4 (F := Ideal) x0 x2 i = Cert.Spec.QXT x2 (Cert.Spec.X x0) i := by
  rw [val_main_v4_apply]
  show _ = ∑ k : Fin 4096, x2 (ix2 (i 0) k) * Cert.Spec.X x0 (ix2 (i 1) k)
  refine Finset.sum_congr rfl fun k _ => ?_
  have el : lidx_main_v4 i k = ix2 (i 0) k := funext fun a => match a with | ⟨0, _⟩ => rfl | ⟨1, _⟩ => rfl
  have er : (ix2 (ridx_main_v4 i k 1) (ridx_main_v4 i k 0) : S4096x4096.Idx) = ix2 (i 1) k :=
    funext fun a => match a with | ⟨0, _⟩ => rfl | ⟨1, _⟩ => rfl
  rw [v3_apply, el, er]; rfl

/-- The third product: entry (a, b) is Σ_l (X · P)[a, l] · (Q · Xᵀ)[l, b]. -/
theorem v5_apply (i : S4096x4096.Idx) :
    val_main_v5 (F := Ideal) x0 x1 x2 i
      = Cert.Spec.S (Cert.Spec.XP (Cert.Spec.X x0) x1) (Cert.Spec.QXT x2 (Cert.Spec.X x0)) i := by
  rw [val_main_v5_apply]
  show _ = ∑ l : Fin 1024, Cert.Spec.XP (Cert.Spec.X x0) x1 (ix2 (i 0) l) * Cert.Spec.QXT x2 (Cert.Spec.X x0) (ix2 l (i 1))
  refine Finset.sum_congr rfl fun l _ => ?_
  have el : lidx_main_v5 i l = ix2 (i 0) l := funext fun a => match a with | ⟨0, _⟩ => rfl | ⟨1, _⟩ => rfl
  have er : ridx_main_v5 i l = ix2 l (i 1) := funext fun a => match a with | ⟨0, _⟩ => rfl | ⟨1, _⟩ => rfl
  rw [v2_apply, v4_apply, el, er]; rfl

/-- The mask at (a, b): the comparison's bit on the words of a + (−1) and b. -/
theorem mask_apply (i : S4096x4096.Idx) :
    val_main_call0_v4 (F := Ideal) i
      = IntOp.cmpi .sge (IntOp.addi (BitVec.ofNat 32 (i 0).val) (BitVec.ofNat 32 4294967295)) (BitVec.ofNat 32 (i 1).val) := by
  rw [val_main_call0_v4_apply, val_main_call0_v2_apply, val_main_call0_v0_apply, val_main_call0_v1_apply,
    val_main_call0_c_apply, val_main_call0_v3_apply]

/-- The fill value at every index is the extended real 0. -/
theorem fill_apply (i : S4096x4096.Idx) : val_main_call0_v5 (F := Ideal) i = 0 := by
  rw [val_main_call0_v5_apply, val_main_call0_cst_apply]
  exact Ideal.ofBits_zero_f32

/-- The whole reference: the strictly lower triangle of (X · P) · (Q · Xᵀ). -/
theorem v6_eq : val_main_v6 (F := Ideal) x0 x1 x2 = Cert.Spec.out x0 x1 x2 := by
  funext i
  rw [val_main_v6_apply, mask_apply, v5_apply, fill_apply]
  show _ = if (i 1).val < (i 0).val then _ else 0
  by_cases h : (i 1).val < (i 0).val
  · rw [(mask_bit _ _ (idx2_lt0 i) (idx2_lt1 i)).mpr h, select_one, if_pos h]
  · rw [eq_zero_of_ne_one (mt (mask_bit _ _ (idx2_lt0 i) (idx2_lt1 i)).mp h), select_zero, if_neg h]

/-! ## The run -/

/-- On every device, from any memory with zero counters, every weakly fair execution of the reference terminates with
    its result the specification's value of the three arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono
    (fun _ h c => ⟨(h c).1.trans ((val_main_v6_eq _ _ _).trans (v6_eq _ _ _)), (h c).2⟩)
    (Cert.ReferenceIdeal.RefRun.run (F := Ideal) m ρ)

end Cert.ReferenceIdeal.RefValue

end
-- ==== Proof.lean ====
/-
  The certificate of the contact-map kernel: S = tril((X · P) · (Q · Xᵀ), −1) with X = features[0, 1:4097, :].

  The kernel is three tiled matrix products. The first two accumulate over eight 512-wide slices of the contracted
  axis in a scratch buffer that is cleared at the first slice and copied out at the last; the third multiplies whole
  rows by whole columns and zeroes every entry whose column is not below its row. The reference is the same three
  products as whole-array `dot_general`s followed by `jnp.tril`. Over the extended reals a change of float format is
  the identity, so both sides are sums of the same products; the eight partial sums of a tiled product regroup into
  the one sum over the whole axis using only commutativity and associativity of +, which hold at the infinities
  too — the precondition is never opened. Both results are proved equal to one function of the three inputs
  (`Cert.Spec.out`). The three frames: each kernel program by following every unscoped buffer through @main's four
  items (no item writes an argument); the reference's by its run with the result dropped.
-/
import proofs.«107991_j70995809403345_1_alg».proof.Defs
import proofs.«107991_j70995809403345_1_alg».proof.Proof.Gen.Kernel
import proofs.«107991_j70995809403345_1_alg».proof.Proof.Gen.KernelIdeal
import proofs.«107991_j70995809403345_1_alg».proof.Proof.Gen.ReferenceIdeal
import proofs.«107991_j70995809403345_1_alg».proof.Proof.Gen.Pre_finite_inputs
import proofs.«107991_j70995809403345_1_alg».proof.Proof.KB.Run
import proofs.«107991_j70995809403345_1_alg».proof.Proof.KI.Value
import proofs.«107991_j70995809403345_1_alg».proof.Proof.RefValue

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Frm.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_spec m ρ)

/-- From memories that agree on the arguments both idealized programs end with the specification's `out` of those
    arguments in their result array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Frm.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
